-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S32x8192x512 : S_.BroadcastsInDim S32x8192x512 (![] : Fin 0 → Fin S32x8192x512.rank)
  reducesTo_S32x8192x512_S_d0_1_2 : S32x8192x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_arg6 : FVec F S8x64 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x64 .f32 := Host.absf main_arg6
  let main_cst_8 : FVec F S_ .f32 := constant S_ .f32 0x7F800000#32
  let main_v25 : FVec F S8x64 .f32 := broadcastInDim S8x64 ![] bcast_S_S8x64 main_cst_8
  let main_v26 : IVec S8x64 1 := cmpf .olt main_v24 main_v25
  let main_c_9 : IVec S_ 1 := constantI S_ 1 1#1
  let main_v27 : IVec S_ 1 := (fun x v => Host.reduce IntOp.andi x v reducesTo_S8x64_S_d0_1 h_S_) main_v26 main_c_9
  let main_v28 : IVec S_ 1 := andi main_v23 main_v27
  main_v28

def fn {F : FTy → Type} [FloatOps F] (main_arg0 : FVec F S32x8192x512 .f32) (main_arg1 : IVec S32x8192 1) (main_arg2 : FVec F S64x512 .f32) (main_arg3 : FVec F S64 .f32) (main_arg4 : FVec F S8x64 .f32) (main_arg5 : FVec F S8 .f32) (main_arg6 : FVec F S8x64 .f32) : IVec S_ 1 :=
  let main_v0 : FVec F S32x8192x512 .f32 := Host.absf main_arg0
  let main_cst : FVec F S_ .f32 := constant S_ .f32 0x7F800000#32
  let main_v1 : FVec F S32x8192x512 .f32 := broadcastInDim S32x8192x512 ![] bcast_S_S32x8192x512 main_cst
  let main_v2 : IVec S32x8192x512 1 := cmpf .olt main_v0 main_v1
  let main_c : IVec S_ 1 := constantI S_ 1 1#1
  let main_v3 : IVec S_ 1 := (fun x v => Host.reduce IntOp.andi x v reducesTo_S32x8192x512_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_v13 main_v16
-- ==== Kernel.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S32x8x64 : Shape := ⟨3, ![32, 8, 64]⟩
abbrev S1x4096x512 : Shape := ⟨3, ![1, 4096, 512]⟩
abbrev S1x8x64 : Shape := ⟨3, ![1, 8, 64]⟩
abbrev S8x1 : Shape := ⟨2, ![8, 1]⟩
abbrev S4096x512 : Shape := ⟨2, ![4096, 512]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩
abbrev S4096x8 : Shape := ⟨2, ![4096, 8]⟩
abbrev S1x8 : Shape := ⟨2, ![1, 8]⟩
abbrev S1 : Shape := ⟨1, ![1]⟩
abbrev S1x1 : Shape := ⟨2, ![1, 1]⟩
abbrev S32x512 : Shape := ⟨2, ![32, 512]⟩

abbrev nBuf : Space → Nat
  | .hbm => 11
  | .vmem => 11
  | .smem => 0
  | _ => 0

abbrev bufTy : (tb : Table) → Fin (tcTables nBuf tb) → BufTy
  | .hbm, ⟨0, _⟩ => ⟨S32x8192x512, .f32⟩
  | .hbm, ⟨1, _⟩ => ⟨S32x8192, .i1⟩
  | .hbm, ⟨2, _⟩ => ⟨S64x512, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S8x64, .f32⟩
  | .hbm, ⟨7, _⟩ => ⟨S64x512, .bf16⟩
  | .hbm, ⟨8, _⟩ => ⟨S8x64, .bf16⟩
  | .hbm, ⟨9, _⟩ => ⟨S32x8x64, .f32⟩
  | .hbm, ⟨10, _⟩ => ⟨S32x512, .f32⟩
  | .local _ .vmem, ⟨0, _⟩ => ⟨S1x4096x512, .f32⟩
  | .local _ .vmem, ⟨1, _⟩ => ⟨S1x4096x512, .f32⟩
  | .local _ .vmem, ⟨2, _⟩ => ⟨S64x512, .bf16⟩
  | .local _ .vmem, ⟨3, _⟩ => ⟨S64, .f32⟩
  | .local _ .vmem, ⟨4, _⟩ => ⟨S8x64, .bf16⟩
  | .local _ .vmem, ⟨5, _⟩ => ⟨S8, .f32⟩
  | .local _ .vmem, ⟨6, _⟩ => ⟨S8x64, .f32⟩
  | .local _ .vmem, ⟨7, _⟩ => ⟨S1x8x64, .f32⟩
  | .local _ .vmem, ⟨8, _⟩ => ⟨S1x8x64, .f32⟩
  | .local _ .vmem, ⟨9, _⟩ => ⟨S8x64, .f32⟩
  | .local _ .vmem, ⟨10, _⟩ => ⟨S8x1, .f32⟩
  | _, _ => ⟨S32x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v54 : BitVec 1 := Scalar.cmpi .eq arg1 c1_i32
  let v55 : BitVec 32 := Scalar.extui v54
  let c0_i32_25 : BitVec 32 := 0#32
  let v56 : BitVec 1 := Scalar.cmpi .ne v55 c0_i32_25
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  reduces_S4096x8_S4096 : S4096x8.Reduces [1] S4096
  broadcasts_S4096x1_S4096x8 : S4096x1.Broadcasts S4096x8
  reduces_S4096x8_S8 : S4096x8.Reduces [0] S8
  shapeCasts_S8_S8x1 : S8.ShapeCasts S8x1
  broadcasts_S8x1_S8x64 : S8x1.Broadcasts S8x64
  reduces_S8x64_S8 : S8x64.Reduces [1] S8
  reduces_S8x1_S1 : S8x1.Reduces [0] S1
  shapeCasts_S1_S1x1 : S1.ShapeCasts S1x1
  broadcasts_S1x1_S8x64 : S1x1.Broadcasts S8x64
  shapeCasts_S8x64_S1x8x64 : S8x64.ShapeCasts S1x8x64
  inb_S1x8x64_S1x8x64_0_0_0 : ∀ a, (![0, 0, 0] : Fin 3 → Nat) a + S1x8x64.size a ≤ S1x8x64.size a
  h_S1x8x64 : 0 < S1x8x64.numel
  shapeCasts_S32x8x64_S32x512 : S32x8x64.ShapeCasts S32x512
  dot_S4096x512_S64x512_S4096x64_1_1_0_0_n_n_wf : DotDims.WF S4096x512 S64x512 S4096x64 [1] [1] [0] [0] [] []
  dot_S4096x64_S8x64_S4096x8_1_1_0_0_n_n_wf : DotDims.WF S4096x64 S8x64 S4096x8 [1] [1] [0] [0] [] []
  dot_S4096x8_S4096x64_S8x64_0_0_1_1_n_n_wf : DotDims.WF S4096x8 S4096x64 S8x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x8192x512.size a
  hwx0_0 : ∀ i : grid0.Coords, EltTy.bits .f32 = 32 ∨ (Rect.block (s := S32x8192x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .bf16 = 32 ∨ (Rect.block (s := S8x64) S8x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x64.size a ≤ S32x8x64.size a
  hwx0_6 : ∀ i : grid0.Coords, EltTy.bits .f32 = 32 ∨ (Rect.block (s := S32x8x64) S1x8x64.size (cc0_transform_6 i) (hinb0_6 i)).WholeWords (EltTy.packing .f32)

variable [Facts₀]

def dot_S4096x512_S64x512_S4096x64_1_1_0_0_n_n : DotDims S4096x512 S64x512 S4096x64 where
  lhsContracting := [1]
  rhsContracting := [1]
  lhsNonContracting := [0]
  rhsNonContracting := [0]
  lhsBatch := []
  rhsBatch := []
  wf := dot_S4096x512_S64x512_S4096x64_1_1_0_0_n_n_wf
def dot_S4096x64_S8x64_S4096x8_1_1_0_0_n_n : DotDims S4096x64 S8x64 S4096x8 where
  lhsContracting := [1]
  rhsContracting := [1]
  lhsNonContracting := [0]
  rhsNonContracting := [0]
  lhsBatch := []
  rhsBatch := []
  wf := dot_S4096x64_S8x64_S4096x8_1_1_0_0_n_n_wf
def dot_S4096x8_S4096x64_S8x64_0_0_1_1_n_n : DotDims S4096x8 S4096x64 S8x64 where
  lhsContracting := [0]
  rhsContracting := [0]
  lhsNonContracting := [1]
  rhsNonContracting := [1]
  lhsBatch := []
  rhsBatch := []
  wf := dot_S4096x8_S4096x64_S8x64_0_0_1_1_n_n_wf

abbrev win0_0 : Pipeline.Window sig grid0 :=
  Pipeline.Window.ofSpec (Memref.whole main_arg0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192x512 : Shape := ⟨3, ![32, 8192, 512]⟩
abbrev S32x8192 : Shape := ⟨2, ![32, 8192]⟩
abbrev S64x512 : Shape := ⟨2, ![64, 512]⟩
abbrev S64 : Shape := ⟨1, ![64]⟩
abbrev S8x64 : Shape := ⟨2, ![8, 64]⟩
abbrev S8 : Shape := ⟨1, ![8]⟩
abbrev S32x8192x64 : Shape := ⟨3, ![32, 8192, 64]⟩
abbrev S1x1x64 : Shape := ⟨3, ![1, 1, 64]⟩
abbrev S_ : Shape := ⟨0, ![]⟩
abbrev S32x8192x1 : Shape := ⟨3, ![32, 8192, 1]⟩
abbrev S32x8192x8 : Shape := ⟨3, ![32, 8192, 8]⟩
abbrev S1x1x8 : Shape := ⟨3, ![1, 1, 8]⟩
abbrev S32x8x64 : Shape := ⟨3, ![32, 8, 64]⟩
abbrev S1x8x64 : Shape := ⟨3, ![1, 8, 64]⟩
abbrev S32x8 : Shape := ⟨2, ![32, 8]⟩
abbrev S32x8x1 : Shape := ⟨3, ![32, 8, 1]⟩
abbrev S32x512 : Shape := ⟨2, ![32, 512]⟩
abbrev S32 : Shape := ⟨1, ![32]⟩
abbrev S32x1 : Shape := ⟨2, ![32, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x8192x512, .f32⟩
  | .hbm, ⟨1, _⟩ => ⟨S32x8192, .i1⟩
  | .hbm, ⟨2, _⟩ => ⟨S64x512, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S8x64, .f32⟩
  | .hbm, ⟨7, _⟩ => ⟨S32x8192x64, .f32⟩
  | .hbm, ⟨8, _⟩ => ⟨S1x1x64, .f32⟩
  | .hbm, ⟨9, _⟩ => ⟨S32x8192x64, .f32⟩
  | .hbm, ⟨10, _⟩ => ⟨S32x8192x64, .f32⟩
  | .hbm, ⟨11, _⟩ => ⟨S32x8192x64, .f32⟩
  | .hbm, ⟨12, _⟩ => ⟨S_, .f32⟩
  | .hbm, ⟨13, _⟩ => ⟨S32x8192, .f32⟩
  | .hbm, ⟨14, _⟩ => ⟨S32x8192x1, .f32⟩
  | .hbm, ⟨15, _⟩ => ⟨S32x8192x1, .f32⟩
  | .hbm, ⟨16, _⟩ => ⟨S_, .f32⟩
  | .hbm, ⟨17, _⟩ => ⟨S32x8192x1, .f32⟩
  | .hbm, ⟨18, _⟩ => ⟨S32x8192x1, .f32⟩
  | .hbm, ⟨19, _⟩ => ⟨S32x8192x64, .f32⟩
  | .hbm, ⟨20, _⟩ => ⟨S32x8192x64, .f32⟩
  | .hbm, ⟨21, _⟩ => ⟨S32x8192x8, .f32⟩
  | .hbm, ⟨22, _⟩ => ⟨S1x1x8, .f32⟩
  | .hbm, ⟨23, _⟩ => ⟨S32x8192x8, .f32⟩
  | .hbm, ⟨24, _⟩ => ⟨S32x8192x8, .f32⟩
  | .hbm, ⟨25, _⟩ => ⟨S_, .f32⟩
  | .hbm, ⟨26, _⟩ => ⟨S32x8192, .f32⟩
  | .hbm, ⟨27, _⟩ => ⟨S_, .f32⟩
  | .hbm, ⟨28, _⟩ => ⟨S32x8192, .f32⟩
  | .hbm, ⟨29, _⟩ => ⟨S32x8192, .f32⟩
  | .hbm, ⟨30, _⟩ => ⟨S32x8192x1, .f32⟩
  | .hbm, ⟨31, _⟩ => ⟨S32x8192x8, .f32⟩
  | .hbm, ⟨32, _⟩ => ⟨S32x8192x8, .f32⟩
  | .hbm, ⟨33, _⟩ => ⟨S32x8192x8, .f32⟩
  | .hbm, ⟨34, _⟩ => ⟨S_, .f32⟩
  | .hbm, ⟨35, _⟩ => ⟨S32x8192, .f32⟩
  | .hbm, ⟨36, _⟩ => ⟨S32x8192x1, .f32⟩
  | .hbm, ⟨37, _⟩ => ⟨S32x8192x8, .f32⟩
  | .hbm, ⟨38, _⟩ => ⟨S32x8192x8, .f32⟩
  | .hbm, ⟨39, _⟩ => ⟨S32x8x64, .f32⟩
  | .hbm, ⟨40, _⟩ => ⟨S1x8x64, .f32⟩
  | .hbm, ⟨41, _⟩ => ⟨S_, .f32⟩
  | .hbm, ⟨42, _⟩ => ⟨S32x8, .f32⟩
  | .hbm, ⟨43, _⟩ => ⟨S32x8x1, .f32⟩
  | .hbm, ⟨44, _⟩ => ⟨S32x8x64, .f32⟩
  | .hbm, ⟨45, _⟩ => ⟨S32x8x64, .f32⟩
  | .hbm, ⟨46, _⟩ => ⟨S32x8x64, .f32⟩
  | .hbm, ⟨47, _⟩ => ⟨S32x8x64, .f32⟩
  | .hbm, ⟨48, _⟩ => ⟨S32x8x64, .f32⟩
  | .hbm, ⟨49, _⟩ => ⟨S_, .f32⟩
  | .hbm, ⟨50, _⟩ => ⟨S32x8, .f32⟩
  | .hbm, ⟨51, _⟩ => ⟨S32x8x1, .f32⟩
  | .hbm, ⟨52, _⟩ => ⟨S32x8x1, .f32⟩
  | .hbm, ⟨53, _⟩ => ⟨S_, .f32⟩
  | .hbm, ⟨54, _⟩ => ⟨S32x8x1, .f32⟩
  | .hbm, ⟨55, _⟩ => ⟨S32x8x1, .f32⟩
  | .hbm, ⟨56, _⟩ => ⟨S32x8x64, .f32⟩
  | .hbm, ⟨57, _⟩ => ⟨S32x8x64, .f32⟩
  | .hbm, ⟨58, _⟩ => ⟨S32x512, .f32⟩
  | .hbm, ⟨59, _⟩ => ⟨S32x512, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S32x1, .f32⟩
  | .hbm, ⟨64, _⟩ => ⟨S_, .f32⟩
  | .hbm, ⟨65, _⟩ => ⟨S32x1, .f32⟩
  | .hbm, ⟨66, _⟩ => ⟨S32x1, .f32⟩
  | .hbm, ⟨67, _⟩ => ⟨S32x512, .f32⟩
  | .hbm, ⟨68, _⟩ => ⟨S32x512, .f32⟩
  | _, _ => ⟨S32x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x8192x64_0_1_2 : S1x1x64.BroadcastsInDim S32x8192x64 (![0, 1, 2] : Fin 3 → Fin S32x8192x64.rank)
  reducesTo_S32x8192x64_S32x8192_d2 : S32x8192x64.ReducesTo [2] S32x8192
  h_S_ : 0 < S_.numel
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S32x8192x1_S32x8192x64_0_1_2 : S32x8192x1.BroadcastsInDim S32x8192x64 (![0, 1, 2] : Fin 3 → Fin S32x8192x64.rank)
  bcast_S8_S1x1x8_2 : S8.BroadcastsInDim S1x1x8 (![2] : Fin 1 → Fin S1x1x8.rank)
  bcast_S1x1x8_S32x8192x8_0_1_2 : S1x1x8.BroadcastsInDim S32x8192x8 (![0, 1, 2] : Fin 3 → Fin S32x8192x8.rank)
  reducesTo_S32x8192x8_S32x8192_d2 : S32x8192x8.ReducesTo [2] S32x8192
  bcast_S_S32x8192 : S_.BroadcastsInDim S32x8192 (![] : Fin 0 → Fin S32x8192.rank)
  bcast_S32x8192x1_S32x8192x8_0_1_2 : S32x8192x1.BroadcastsInDim S32x8192x8 (![0, 1, 2] : Fin 3 → Fin S32x8192x8.rank)
  bcast_S8x64_S1x8x64_1_2 : S8x64.BroadcastsInDim S1x8x64 (![1, 2] : Fin 2 → Fin S1x8x64.rank)
  reducesTo_S32x8192x8_S32x8_d1 : S32x8192x8.ReducesTo [1] S32x8
  bcast_S32x8_S32x8x1_0_1 : S32x8.BroadcastsInDim S32x8x1 (![0, 1] : Fin 2 → Fin S32x8x1.rank)
  bcast_S1x8x64_S32x8x64_0_1_2 : S1x8x64.BroadcastsInDim S32x8x64 (![0, 1, 2] : Fin 3 → Fin S32x8x64.rank)
  bcast_S32x8x1_S32x8x64_0_1_2 : S32x8x1.BroadcastsInDim S32x8x64 (![0, 1, 2] : Fin 3 → Fin S32x8x64.rank)
  reducesTo_S32x8x64_S32x8_d2 : S32x8x64.ReducesTo [2] S32x8
  bcast_S_S32x8x1 : S_.BroadcastsInDim S32x8x1 (![] : Fin 0 → Fin S32x8x1.rank)
  shapeCasts_S32x8x64_S32x512 : S32x8x64.ShapeCasts S32x512
  reducesTo_S32x512_S32_d1 : S32x512.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  dot_S32x8192x512_S64x512_S32x8192x64_2_1_01_0_n_n_wf : DotDims.WF S32x8192x512 S64x512 S32x8192x64 [2] [1] [0, 1] [0] [] []
  dot_S32x8192x64_S8x64_S32x8192x8_2_1_01_0_n_n_wf : DotDims.WF S32x8192x64 S8x64 S32x8192x8 [2] [1] [0, 1] [0] [] []
  dot_S32x8192x8_S32x8192x64_S32x8x64_1_1_2_2_0_0_wf : DotDims.WF S32x8192x8 S32x8192x64 S32x8x64 [1] [1] [2] [2] [0] [0]

variable [Facts₀]

def dot_S32x8192x512_S64x512_S32x8192x64_2_1_01_0_n_n : DotDims S32x8192x512 S64x512 S32x8192x64 where
  lhsContracting := [2]
  rhsContracting := [1]
  lhsNonContracting := [0, 1]
  rhsNonContracting := [0]
  lhsBatch := []
  rhsBatch := []
  wf := dot_S32x8192x512_S64x512_S32x8192x64_2_1_01_0_n_n_wf
def dot_S32x8192x64_S8x64_S32x8192x8_2_1_01_0_n_n : DotDims S32x8192x64 S8x64 S32x8192x8 where
  lhsContracting := [2]
  rhsContracting := [1]
  lhsNonContracting := [0, 1]
  rhsNonContracting := [0]
  lhsBatch := []
  rhsBatch := []
  wf := dot_S32x8192x64_S8x64_S32x8192x8_2_1_01_0_n_n_wf
def dot_S32x8192x8_S32x8192x64_S32x8x64_1_1_2_2_0_0 : DotDims S32x8192x8 S32x8192x64 S32x8x64 where
  lhsContracting := [1]
  rhsContracting := [1]
  lhsNonContracting := [2]
  rhsNonContracting := [2]
  lhsBatch := [0]
  rhsBatch := [0]
  wf := dot_S32x8192x8_S32x8192x64_S32x8x64_1_1_2_2_0_0_wf

class Facts : Prop extends Facts₀ where

variable [Facts]
-- ==== Proof.Spec.lean ====
/-
  The mathematics of the soft-assignment pooling, written once over plain index types and extended reals.

  A token is a row of 512 numbers. It is projected to 64 numbers (a product with a 64 x 512 matrix plus an offset),
  scaled to unit length (divided by the larger of its length and a small floor), scored against 8 clusters (a product
  with an 8 x 64 matrix plus an offset), and the scores are turned into weights by the shifted exponential divided by
  its sum. A sequence of tokens is pooled per cluster: the weighted sum of the unit vectors, less the cluster's centre
  times the total weight. The 8 x 64 result is scaled to unit length row by row and then as a whole.

  Every operation is the extended reals' own (sums, products, `Ideal.div`, `Ideal.sqrt`, `Ideal.exp`, `max`); the two
  literals are kept as bit patterns, the same on both sides of the comparison, and are never evaluated.
-/
import Idealize.ShloMosaic.PureOps.Ideal

noncomputable section

open scoped BigOperators
open Idealize.ShloMosaic

namespace Cert.Vlad

/-- The floor under every length: the pattern of the single-precision number nearest to 10⁻¹². -/
abbrev tiny : EReal := Ideal.ofBits .f32 0x2B8CBCCC#32
/-- The value the running maximum starts from: the pattern of minus infinity. -/
abbrev lowest : EReal := Ideal.ofBits .f32 0xFF800000#32

/-- A vector divided by the larger of its length and the floor, one entry. -/
def scaled {n : Nat} (v : Fin n → EReal) (d : Fin n) : EReal :=
  Ideal.div (v d) (max (Ideal.sqrt (∑ d' : Fin n, v d' * v d')) tiny)

section Token
variable (Wr : Fin 64 → Fin 512 → EReal) (br : Fin 64 → EReal) (Wl : Fin 8 → Fin 64 → EReal) (bl : Fin 8 → EReal)

/-- The projection of a token to 64 numbers. -/
def proj (x : Fin 512 → EReal) (d : Fin 64) : EReal := (∑ c : Fin 512, x c * Wr d c) + br d
/-- The projection scaled to unit length. -/
def dir (x : Fin 512 → EReal) (d : Fin 64) : EReal := scaled (proj Wr br x) d
/-- The token's score against cluster `k`. -/
def score (x : Fin 512 → EReal) (k : Fin 8) : EReal := (∑ d : Fin 64, dir Wr br x d * Wl k d) + bl k
/-- The largest score (from minus infinity, and once more against minus infinity). -/
def peak (x : Fin 512 → EReal) : EReal := max lowest (Finset.univ.fold max lowest (score Wr br Wl bl x))
/-- The exponential of a score less the largest. -/
def lifted (x : Fin 512 → EReal) (k : Fin 8) : EReal := Ideal.exp (score Wr br Wl bl x k - peak Wr br Wl bl x)
/-- The sum of those exponentials over the clusters. -/
def mass (x : Fin 512 → EReal) : EReal := ∑ k : Fin 8, lifted Wr br Wl bl x k
/-- The token's weight on cluster `k`. -/
def weight (x : Fin 512 → EReal) (k : Fin 8) : EReal := Ideal.div (lifted Wr br Wl bl x k) (mass Wr br Wl bl x)

/-- The weighted sum of the unit vectors of `T` tokens, per cluster and coordinate. -/
def pooled {T : Nat} (X : Fin T → Fin 512 → EReal) (k : Fin 8) (d : Fin 64) : EReal :=
  ∑ m : Fin T, weight Wr br Wl bl (X m) k * dir Wr br (X m) d
/-- The total weight of `T` tokens on cluster `k`. -/
def total {T : Nat} (X : Fin T → Fin 512 → EReal) (k : Fin 8) : EReal := ∑ m : Fin T, weight Wr br Wl bl (X m) k

end Token

/-- The pooled sums less each centre times its cluster's total weight. -/
def resid (Ce : Fin 8 → Fin 64 → EReal) (P : Fin 8 → Fin 64 → EReal) (S : Fin 8 → EReal) (k : Fin 8) (d : Fin 64) : EReal :=
  P k d - Ce k d * S k
/-- Each row scaled to unit length. -/
def rowScaled (v : Fin 8 → Fin 64 → EReal) (k : Fin 8) (d : Fin 64) : EReal := scaled (v k) d
/-- The whole 8 x 64 array scaled to unit length: the sum of squares taken row by row, then over the rows. -/
def allScaled (u : Fin 8 → Fin 64 → EReal) (k : Fin 8) (d : Fin 64) : EReal :=
  Ideal.div (u k d) (max (Ideal.sqrt (∑ k' : Fin 8, ∑ d' : Fin 64, u k' d' * u k' d')) tiny)
/-- The descriptor of one sequence from its pooled sums and total weights. -/
def descriptor (Ce : Fin 8 → Fin 64 → EReal) (P : Fin 8 → Fin 64 → EReal) (S : Fin 8 → EReal) (k : Fin 8) (d : Fin 64) : EReal :=
  allScaled (rowScaled (resid Ce P S)) k d

end Cert.Vlad

end
-- ==== Proof.KCase.lean ====
/-
  What one run of the kernel's body leaves behind, as values. At a first block (the running sums are reset) the two
  scratch arrays end at the block's contribution added to zero; at a second block they end at the contribution added to
  what the block before left, and the output block is the last step applied to the centres and those two sums.
-/
import proofs.«129890_j20444044329188_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Case

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block's contribution to the pooled sums, on top of `acc`. -/
abbrev accStep (x0 : Vec F S1x4096x512 .f32) (x1 : Vec F S64x512 .bf16) (x2 : Vec F S64 .f32) (x3 : Vec F S8x64 .bf16)
    (x4 : Vec F S8 .f32) (acc : Vec F S8x64 .f32) : Vec F S8x64 .f32 :=
  k0_pay2 (k0_pay7 x0 x1 x2) (k0_pay8 x0 x1 x2 x3 x4) (k0_pay9 x0 x1 x2 x3 x4) acc
/-- The block's contribution to the total weights, on top of `asum`. -/
abbrev sumStep (x0 : Vec F S1x4096x512 .f32) (x1 : Vec F S64x512 .bf16) (x2 : Vec F S64 .f32) (x3 : Vec F S8x64 .bf16)
    (x4 : Vec F S8 .f32) (asum : Vec F S8x1 .f32) : Vec F S8x1 .f32 :=
  k0_pay3 (k0_pay8 x0 x1 x2 x3 x4) (k0_pay9 x0 x1 x2 x3 x4) asum

/-- A first block leaves the pooled sums at its contribution over zero. -/
theorem sout_A_0 (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S64 .f32) (harg4 : arg4.IsWhole) (arg5 : Memref sig .tc .vmem S8x64 .bf16) (harg5 : arg5.IsWhole) (arg6 : Memref sig .tc .vmem S8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : cond0_0 i) (hc1 : ¬cond0_1 i) (x0 : Vec F S1x4096x512 .f32) (x1 : Vec F S64x512 .bf16) (x2 : Vec F S64 .f32) (x3 : Vec F S8x64 .bf16) (x4 : Vec F S8 .f32) (x5 : Vec F S8x64 .f32) :
    sout0_A_0 c i arg2 harg2 arg3 harg3 arg4 harg4 arg5 harg5 arg6 harg6 arg7 harg7 arg8 harg8 arg9 harg9 arg10 harg10 hc0 hc1 x0 x1 x2 x3 x4 x5 = accStep x0 x1 x2 x3 x4 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S8x64) hz2]
  simp only [View.readAt_eq_ld, harg2.read_unread, harg3.read_unread, harg4.read_unread, harg5.read_unread, harg6.read_unread, harg7.read_unread, harg8.read_unread, harg9.read_unread, harg10.read_unread, View.ld_unit_zero (S := S1x4096x512) hz3, View.ld_unit_zero (S := S64x512) hz2, View.ld_unit_zero (S := S64) hz1, View.ld_unit_zero (S := S8x64) hz2, View.ld_unit_zero (S := S8) hz1, View.ld_unit_zero (S := S8x1) hz2, View.ld_unit_zero (S := S1x8x64) hz3, View.readCov_unit_zero (S := S8x64) _ hz2, View.readCov_unit_zero (S := S8x1) _ hz2]

/-- A first block leaves the total weights at its contribution over zero. -/
theorem sout_A_1 (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S64 .f32) (harg4 : arg4.IsWhole) (arg5 : Memref sig .tc .vmem S8x64 .bf16) (harg5 : arg5.IsWhole) (arg6 : Memref sig .tc .vmem S8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : cond0_0 i) (hc1 : ¬cond0_1 i) (x0 : Vec F S1x4096x512 .f32) (x1 : Vec F S64x512 .bf16) (x2 : Vec F S64 .f32) (x3 : Vec F S8x64 .bf16) (x4 : Vec F S8 .f32) (x5 : Vec F S8x64 .f32) :
    sout0_A_1 c i arg2 harg2 arg3 harg3 arg4 harg4 arg5 harg5 arg6 harg6 arg7 harg7 arg8 harg8 arg9 harg9 arg10 harg10 hc0 hc1 x0 x1 x2 x3 x4 x5 = sumStep x0 x1 x2 x3 x4 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S8x1) hz2]
  simp only [View.readAt_eq_ld, harg2.read_unread, harg3.read_unread, harg4.read_unread, harg5.read_unread, harg6.read_unread, harg7.read_unread, harg8.read_unread, harg9.read_unread, harg10.read_unread, View.ld_unit_zero (S := S1x4096x512) hz3, View.ld_unit_zero (S := S64x512) hz2, View.ld_unit_zero (S := S64) hz1, View.ld_unit_zero (S := S8x64) hz2, View.ld_unit_zero (S := S8) hz1, View.ld_unit_zero (S := S8x1) hz2, View.ld_unit_zero (S := S1x8x64) hz3, View.readCov_unit_zero (S := S8x64) _ hz2, View.readCov_unit_zero (S := S8x1) _ hz2]

/-- A second block leaves the pooled sums at its contribution over what it found. -/
theorem sout_B_0 (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S64 .f32) (harg4 : arg4.IsWhole) (arg5 : Memref sig .tc .vmem S8x64 .bf16) (harg5 : arg5.IsWhole) (arg6 : Memref sig .tc .vmem S8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S64 .f32) (x3 : Vec F S8x64 .bf16) (x4 : Vec F S8 .f32) (x5 : Vec F S8x64 .f32) (xs0 : Vec F S8x64 .f32) (xs1 : Vec F S8x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = accStep x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x4096x512) hz3, View.ld_unit_zero (S := S64x512) hz2, View.ld_unit_zero (S := S64) hz1, View.ld_unit_zero (S := S8x64) hz2, View.ld_unit_zero (S := S8) hz1, View.ld_unit_zero (S := S8x1) hz2, View.ld_unit_zero (S := S1x8x64) hz3, View.readCov_unit_zero (S := S8x64) _ hz2, View.readCov_unit_zero (S := S8x1) _ hz2]

/-- A second block leaves the total weights at its contribution over what it found. -/
theorem sout_B_1 (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S64 .f32) (harg4 : arg4.IsWhole) (arg5 : Memref sig .tc .vmem S8x64 .bf16) (harg5 : arg5.IsWhole) (arg6 : Memref sig .tc .vmem S8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S64 .f32) (x3 : Vec F S8x64 .bf16) (x4 : Vec F S8 .f32) (x5 : Vec F S8x64 .f32) (xs0 : Vec F S8x64 .f32) (xs1 : Vec F S8x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = sumStep x0 x1 x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S1x4096x512) hz3, View.ld_unit_zero (S := S64x512) hz2, View.ld_unit_zero (S := S64) hz1, View.ld_unit_zero (S := S8x64) hz2, View.ld_unit_zero (S := S8) hz1, View.ld_unit_zero (S := S8x1) hz2, View.ld_unit_zero (S := S1x8x64) hz3, View.readCov_unit_zero (S := S8x64) _ hz2, View.readCov_unit_zero (S := S8x1) _ hz2]

/-- A second block leaves in the output block the last step of the centres and the two sums it has just updated. -/
theorem out_B_6 (c : Dev nD) (i : grid0.Coords) (arg2 : Memref sig .tc .vmem S1x4096x512 .f32) (harg2 : arg2.IsWhole) (arg3 : Memref sig .tc .vmem S64x512 .bf16) (harg3 : arg3.IsWhole) (arg4 : Memref sig .tc .vmem S64 .f32) (harg4 : arg4.IsWhole) (arg5 : Memref sig .tc .vmem S8x64 .bf16) (harg5 : arg5.IsWhole) (arg6 : Memref sig .tc .vmem S8 .f32) (harg6 : arg6.IsWhole) (arg7 : Memref sig .tc .vmem S8x64 .f32) (harg7 : arg7.IsWhole) (arg8 : Memref sig .tc .vmem S1x8x64 .f32) (harg8 : arg8.IsWhole) (arg9 : Memref sig .tc .vmem S8x64 .f32) (harg9 : arg9.IsWhole) (arg10 : Memref sig .tc .vmem S8x1 .f32) (harg10 : arg10.IsWhole) (hc0 : ¬cond0_0 i) (hc1 : cond0_1 i) (x0 : Vec F S1x4096x512 .f32) (x1 : Vec F S64x512 .bf16) (x2 : Vec F S64 .f32) (x3 : Vec F S8x64 .bf16) (x4 : Vec F S8 .f32) (x5 : Vec F S8x64 .f32) (xs0 : Vec F S8x64 .f32) (xs1 : Vec F S8x1 .f32) :
    out0_B_6 c i arg2 harg2 arg3 harg3 arg4 harg4 arg5 harg5 arg6 harg6 arg7 harg7 arg8 harg8 arg9 harg9 arg10 harg10 hc0 hc1 x0 x1 x2 x3 x4 x5 xs0 xs1
      = k0_pay4 x5 (accStep x0 x1 x2 x3 x4 xs0) (sumStep x0 x1 x2 x3 x4 xs1) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1x4096x512) hz3, View.ld_unit_zero (S := S64x512) hz2, View.ld_unit_zero (S := S64) hz1, View.ld_unit_zero (S := S8x64) hz2, View.ld_unit_zero (S := S8) hz1, View.ld_unit_zero (S := S8x1) hz2, View.ld_unit_zero (S := S1x8x64) hz3, View.readCov_unit_zero (S := S8x64) _ hz2, View.readCov_unit_zero (S := S8x1) _ hz2]

end Cert.KernelIdeal.Case

end
-- ==== Proof.KChain.lean ====
/-
  From single runs of the body to the result array. The grid visits each of the 32 sequences twice: at an even point the
  first 4096 tokens (the running sums start again from zero), at the next, odd, point the last 4096, after which the
  output block of that sequence is written. So what the odd point 2b + 1 writes is the last step applied to the centres
  and to the two blocks' contributions added in order, and the result array, whose block b is written at that point and
  at no other, is that for every b. The host reshape after the kernel lays each sequence's 8 x 64 block out as 512 numbers.
-/
import proofs.«129890_j20444044329188_1_alg».proof.Proof.KCase
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Case

variable {F : FTy → Type} [FloatOps F]
variable (m : (ℓ : Loc nD τ sig) → Buf (Elt F) ℓ) (ρ : Dev nD → PrngReg)

/-- The six input blocks at a grid point, each at its own shape: the tokens, the projection's matrix and offset, the
    scoring matrix and offset, the centres. -/
abbrev tokB (c : Dev nD) (t : Fin cfg0.N) : Vec F S1x4096x512 .f32 := iblk m c 0 t
abbrev wrB (c : Dev nD) (t : Fin cfg0.N) : Vec F S64x512 .bf16 := iblk m c 1 t
abbrev brB (c : Dev nD) (t : Fin cfg0.N) : Vec F S64 .f32 := iblk m c 2 t
abbrev wlB (c : Dev nD) (t : Fin cfg0.N) : Vec F S8x64 .bf16 := iblk m c 3 t
abbrev blB (c : Dev nD) (t : Fin cfg0.N) : Vec F S8 .f32 := iblk m c 4 t
abbrev ceB (c : Dev nD) (t : Fin cfg0.N) : Vec F S8x64 .f32 := iblk m c 5 t

/-- After an even point the pooled sums hold that block's contribution over zero. -/
theorem acc_even (c : Dev nD) (t : Fin cfg0.N) (h0 : t.val % 2 = 0) :
    (outsAt0 m c t.val t.isLt).2.1 = accStep (tokB m c t) (wrB m c t) (brB m c t) (wlB m c t) (blB m c t) (k0_pay5 (F := F)) := by
  have h1 : ¬t.val % 2 = 1 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- After an even point the total weights hold that block's contribution over zero. -/
theorem sum_even (c : Dev nD) (t : Fin cfg0.N) (h0 : t.val % 2 = 0) :
    (outsAt0 m c t.val t.isLt).2.2 = sumStep (tokB m c t) (wrB m c t) (brB m c t) (wlB m c t) (blB m c t) (k0_pay6 (F := F)) := by
  have h1 : ¬t.val % 2 = 1 := by omega
  rw [outsAt0_A m c t h0 h1]
  dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- What an odd point `t` leaves in the output block, `tp` being the point before it: the last step of the centres and the
    two blocks' contributions, the earlier block's first. -/
def lastBlock (c : Dev nD) (t tp : Fin cfg0.N) : Vec F S1x8x64 .f32 :=
  k0_pay4 (ceB m c t) (accStep (tokB m c t) (wrB m c t) (brB m c t) (wlB m c t) (blB m c t) (accStep (tokB m c tp) (wrB m c tp) (brB m c tp) (wlB m c tp) (blB m c tp) (k0_pay5 (F := F))))
    (sumStep (tokB m c t) (wrB m c t) (brB m c t) (wlB m c t) (blB m c t) (sumStep (tokB m c tp) (wrB m c tp) (brB m c tp) (wlB m c tp) (blB m c tp) (k0_pay6 (F := F))))

/-- The output block after an odd point. -/
theorem out_odd (c : Dev nD) (t : Fin cfg0.N) (h1 : t.val % 2 = 1) (tp : Fin cfg0.N) (htp : tp.val = t.val - 1) :
    (outsAt0 m c t.val t.isLt).1 = lastBlock m c t tp := by
  have h0 : ¬t.val % 2 = 0 := by omega
  obtain ⟨p, hp⟩ := tp
  dsimp only at htp
  subst htp
  have e0 : (outsAt0 m c (t.val - 1) hp).2.1 = accStep (tokB m c ⟨t.val - 1, hp⟩) (wrB m c ⟨t.val - 1, hp⟩) (brB m c ⟨t.val - 1, hp⟩) (wlB m c ⟨t.val - 1, hp⟩) (blB m c ⟨t.val - 1, hp⟩) (k0_pay5 (F := F)) :=
    acc_even m c ⟨t.val - 1, hp⟩ (by show (t.val - 1) % 2 = 0; omega)
  have e1 : (outsAt0 m c (t.val - 1) hp).2.2 = sumStep (tokB m c ⟨t.val - 1, hp⟩) (wrB m c ⟨t.val - 1, hp⟩) (brB m c ⟨t.val - 1, hp⟩) (wlB m c ⟨t.val - 1, hp⟩) (blB m c ⟨t.val - 1, hp⟩) (k0_pay6 (F := F)) :=
    sum_even m c ⟨t.val - 1, hp⟩ (by show (t.val - 1) % 2 = 0; omega)
  rw [outsAt0_B m c t h0 h1]
  dsimp only
  refine (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) hp).2.1 (outsAt0 m c (t.val - 1) hp).2.2).trans ?_
  unfold lastBlock
  rw [e0, e1]

/-- Grid point number `2 b + j`: block `j` of sequence `b`. -/
def ptOf (b : Nat) (hb : b < 32) (j : Nat) (hj : j < 2) : Fin cfg0.N :=
  ⟨2 * b + j, by have : cfg0.N = 64 := N_0; omega⟩

/-- The result array of the kernel: block `b` is what the odd point of sequence `b` leaves. -/
def G (c : Dev nD) : S32x8x64.Idx → Elt F .f32 := fun i =>
  lastBlock m c (ptOf (i 0).val (i 0).isLt 1 (by decide)) (ptOf (i 0).val (i 0).isLt 0 (by decide))
    (fun a => match a with | ⟨0, _⟩ => ⟨0, Nat.one_pos⟩ | ⟨1, _⟩ => i 1 | ⟨2, _⟩ => i 2)

/-- `G` at an index, the two points and the position inside the block named by the caller. -/
theorem G_apply (c : Dev nD) (i : S32x8x64.Idx) (t tp : Fin cfg0.N) (y : S1x8x64.Idx)
    (ht : t.val = 2 * (i 0).val + 1) (htp : tp.val = 2 * (i 0).val) (hy1 : (y 1).val = (i 1).val) (hy2 : (y 2).val = (i 2).val) :
    G m c i = lastBlock m c t tp y := by
  obtain rfl : t = ptOf (i 0).val (i 0).isLt 1 (by decide) := Fin.ext ht
  obtain rfl : tp = ptOf (i 0).val (i 0).isLt 0 (by decide) := Fin.ext htp
  have hy : y = (fun a => match a with | ⟨0, _⟩ => ⟨0, Nat.one_pos⟩ | ⟨1, _⟩ => i 1 | ⟨2, _⟩ => i 2) := by
    funext a; apply Fin.ext
    match a with
    | ⟨0, _⟩ => have h1 : (y 0).val < 1 := (y 0).isLt; show (y 0).val = 0; omega
    | ⟨1, _⟩ => exact hy1
    | ⟨2, _⟩ => exact hy2
  rw [hy]
  rfl

/-- The output window's block index at a point: the sequence's number, then zero twice. -/
theorem idx_facts6 : ∀ t : Fin cfg0.N, win0_6.index t (0 : Fin 3) = t.val / 2 ∧ win0_6.index t (1 : Fin 3) = 0
    ∧ win0_6.index t (2 : Fin 3) = 0 :=
  (by decide +kernel : ∀ t : Fin grid0.N, _)

/-- What an odd point writes back is its block of `G`. -/
theorem flushed_eq (c : Dev nD) (t : Fin cfg0.N) (hf : (cfg0.win 6).flush t = true) :
    (dats m 0 c).flushed 6 t = ((cfg0.win 6).blk t).view.read (Elt F) (G m c) := by
  have h1 : t.val % 2 = 1 := (flush0_6 t).mp hf
  have hN : cfg0.N = 64 := N_0
  have htl : t.val < 64 := hN ▸ t.isLt
  obtain ⟨e0, e1, e2⟩ := idx_facts6 t
  show (cfg0.win 6).cut (grid0.coords t) ((dats m 0 c).after 6 t) = _
  rw [after0_6, out_odd m c t h1 ⟨t.val - 1, by omega⟩ rfl]
  funext y
  show lastBlock m c t ⟨t.val - 1, _⟩ y = G m c (((cfg0.win 6).blk t).view.emb y)
  have hy0' : (y 0).val < 1 := (y 0).isLt
  have hy0 : (y 0).val = 0 := by omega
  have c0 : ((((cfg0.win 6).blk t).view.emb y) 0).val = win0_6.index t (0 : Fin 3) * 1 + 1 * (y 0).val := rfl
  have c1 : ((((cfg0.win 6).blk t).view.emb y) 1).val = win0_6.index t (1 : Fin 3) * 8 + 1 * (y 1).val := rfl
  have c2 : ((((cfg0.win 6).blk t).view.emb y) 2).val = win0_6.index t (2 : Fin 3) * 64 + 1 * (y 2).val := rfl
  refine (G_apply m c _ t ⟨t.val - 1, by omega⟩ y ?_ ?_ ?_ ?_).symm
  · rw [c0, e0, hy0]; omega
  · show t.val - 1 = _; rw [c0, e0, hy0]; omega
  · rw [c1, e1]; omega
  · rw [c2, e2]; omega

/-- An index of the result array lies in a point's block iff each coordinate lies in the block's range. -/
theorem mem_blk6 (t : Fin cfg0.N) (i : S32x8x64.Idx) :
    i ∈ ((cfg0.win 6).blk t).view.set ↔ ∀ a : Fin 3, win0_6.index t a * S1x8x64.size a ≤ (i a).val ∧ (i a).val < win0_6.index t a * S1x8x64.size a + S1x8x64.size a := by
  show i ∈ ((View.whole main_v2).slice (win0_6.rect t)).set ↔ _
  rw [View.set_slice_whole, Rect.mem_set_unit]
  exact Iff.rfl

/-- The array after the run is `G`: the odd point of sequence `b` covers row `b`. -/
theorem final (c : Dev nD) : (dats m 0 c).arrAt 6 cfg0.N = G m c :=
  (dats m 0 c).arrAt_eq_of_cover 6 (G m c) (flushed_eq m c) fun i => by
    have hi0 : (i 0).val < 32 := (i 0).isLt
    have hi1 : (i 1).val < 8 := (i 1).isLt
    have hi2 : (i 2).val < 64 := (i 2).isLt
    obtain ⟨e0, e1, e2⟩ := idx_facts6 (ptOf (i 0).val hi0 1 (by decide))
    have hv : (ptOf (i 0).val hi0 1 (by decide)).val = 2 * (i 0).val + 1 := rfl
    refine ⟨ptOf (i 0).val hi0 1 (by decide), (flush0_6 _).mpr (by rw [hv]; omega), ?_⟩
    rw [mem_blk6]
    intro a
    match a with
    | ⟨0, _⟩ => show win0_6.index _ (0 : Fin 3) * 1 ≤ (i 0).val ∧ (i 0).val < win0_6.index _ (0 : Fin 3) * 1 + 1; rw [e0, hv]; omega
    | ⟨1, _⟩ => show win0_6.index _ (1 : Fin 3) * 8 ≤ (i 1).val ∧ (i 1).val < win0_6.index _ (1 : Fin 3) * 8 + 8; rw [e1]; omega
    | ⟨2, _⟩ => show win0_6.index _ (2 : Fin 3) * 64 ≤ (i 2).val ∧ (i 2).val < win0_6.index _ (2 : Fin 3) * 64 + 64; rw [e2]; omega

/-- The program's result: the reshape of the kernel's array. -/
theorem tail_eq (c : Dev nD) :
    Pipeline.afterTail₀ cfgs (dats m) 0 (V0 m) [hostOps1] c main_v3 = shapeCast S32x512 (G m c) shapeCasts_S32x8x64_S32x512 := by
  unfold Pipeline.afterTail₀
  show StableHlo.after hostOps1 _ (Proc.devRef .tc main_v3) = _
  after_results
  exact congrArg (fun x => shapeCast S32x512 x shapeCasts_S32x8x64_S32x512)
    ((Pipeline.withArrays_arr spec0 launch0.win.arr_inj c _ _ 6).trans (final m c))

end Cert.KernelIdeal.Chain

end
-- ==== Proof.KToken.lean ====
/-
  The kernel's work on one block of 4096 tokens, read one entry at a time: the scaled projection, the lifted scores and
  their sum are, row by row, the token functions of the specification applied to that row of the block.
-/
import proofs.«129890_j20444044329188_1_alg».proof.Proof.Spec
import proofs.«129890_j20444044329188_1_alg».proof.Proof.Gen.KernelIdeal.Skeleton
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Token

open Cert.KernelIdeal Cert.KernelIdeal.Gen

/-! ## Reshapes and copies along a unit axis, read at an entry -/

section Layout
variable {α : Type}

/-- A list of 4096 numbers viewed as a column: entry (r, 0) of the column is entry r of the list, since both sit at
    position r when the entries are counted row by row. -/
theorem castCol_apply (v : (⟨1, ![4096]⟩ : Shape).Idx → α) (h : S4096.ShapeCasts S4096x1) (r : Fin 4096) (u : Fin 1) :
    shapeCast S4096x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column copied across 64 columns: entry (r, d) is the column's entry (r, 0). -/
theorem bcastCol64_apply (v : (⟨2, ![4096, 1]⟩ : Shape).Idx → α) (h : S4096x1.Broadcasts S4096x64) (r : Fin 4096) (d : Fin 64) :
    broadcastTo S4096x64 v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- A column copied across 8 columns: entry (r, k) is the column's entry (r, 0). -/
theorem bcastCol8_apply (v : (⟨2, ![4096, 1]⟩ : Shape).Idx → α) (h : S4096x1.Broadcasts S4096x8) (r : Fin 4096) (k : Fin 8) :
    broadcastTo S4096x8 v h (ix2 r k) = v (ix2 r (0 : Fin 1)) := by
  refine broadcastTo_apply v h (ix2 r k) (ix2 r (0 : Fin 1)) fun ax => ?_
  match ax with
  | ⟨0, _⟩ => rfl
  | ⟨1, _⟩ => rfl

end Layout

/-! ## Sums and maxima along a row -/

/-- The sum along the second axis of a 4096 x 64 array, at row r: the sum over d of the entries (r, d). -/
theorem rowSum64_apply (src : FVec Ideal S4096x64 .f32) (r : Fin 4096) :
    multiReduction (F := Ideal) .add [1] S4096 src 0x00000000#32 reduces_S4096x64_S4096 (.inl rfl) rfl (ix1 r)
      = ∑ d : Fin 64, src (ix2 r d) := by
  refine (Ideal.multiReduction_add_single src 0x00000000#32 reduces_S4096x64_S4096 _ _ (ix1 r)).trans ?_
  refine Finset.sum_congr rfl fun k _ => congrArg src ?_
  funext ax
  match ax with
  | ⟨0, _⟩ => rfl
  | ⟨1, _⟩ => rfl

/-- The sum along the second axis of a 4096 x 8 array, at row r: the sum over k of the entries (r, k). -/
theorem rowSum8_apply (src : FVec Ideal S4096x8 .f32) (r : Fin 4096) :
    multiReduction (F := Ideal) .add [1] S4096 src 0x00000000#32 reduces_S4096x8_S4096 (.inl rfl) rfl (ix1 r)
      = ∑ k : Fin 8, src (ix2 r k) := by
  refine (Ideal.multiReduction_add_single src 0x00000000#32 reduces_S4096x8_S4096 _ _ (ix1 r)).trans ?_
  refine Finset.sum_congr rfl fun k _ => congrArg src ?_
  funext ax
  match ax with
  | ⟨0, _⟩ => rfl
  | ⟨1, _⟩ => rfl

/-- The maximum along the second axis of a 4096 x 8 array, at row r: the maximum, started from minus infinity, of the
    entries (r, k) over k. -/
theorem rowMax8_apply (src : FVec Ideal S4096x8 .f32) (r : Fin 4096) :
    multiReduction (F := Ideal) .maximumf [1] S4096 src 0xFF800000#32 reduces_S4096x8_S4096 (.inl rfl) rfl (ix1 r)
      = (Finset.univ : Finset (Fin 8)).fold max Cert.Vlad.lowest (fun k => src (ix2 r k)) := by
  refine (Ideal.multiReduction_maximumf_single src 0xFF800000#32 reduces_S4096x8_S4096 _ _ (ix1 r)).trans ?_
  show (Finset.univ : Finset (Fin 8)).fold max Cert.Vlad.lowest (src ∘ reduces_S4096x8_S4096.lift (ix1 r)) = _
  refine Finset.fold_congr fun k _ => congrArg src ?_
  funext ax
  match ax with
  | ⟨0, _⟩ => rfl
  | ⟨1, _⟩ => rfl

/-! ## The two products, read at an entry -/

/-- The product of a 4096 x 512 array with a 64 x 512 one over their second axes, added to zero: entry (r, d) is the sum
    over c of A (r, c) · B (d, c). The contraction has one axis, so its index is the coordinate c. -/
theorem projDot_apply (A : FVec Ideal S4096x512 .bf16) (B : FVec Ideal S64x512 .bf16) (r : Fin 4096) (d : Fin 64) :
    matmul (F := Ideal) dot_S4096x512_S64x512_S4096x64_1_1_0_0_n_n none A B (constant S4096x64 .f32 0x00000000#32) (ix2 r d)
      = ∑ c : Fin 512, A (ix2 r c) * B (ix2 d c) := by
  show FloatOps.matmul _ none A B (constant S4096x64 .f32 0x00000000#32) (ix2 r d) = _
  rw [Ideal.matmul_constant_zero_apply,
    ← Equiv.sum_comp (contrEquiv1 dot_S4096x512_S64x512_S4096x64_1_1_0_0_n_n 512 rfl rfl).symm]
  refine Finset.sum_congr rfl fun c _ => ?_
  have c2 := contrEquiv1_symm_val dot_S4096x512_S64x512_S4096x64_1_1_0_0_n_n 512 rfl rfl c
  have l2 : dot_S4096x512_S64x512_S4096x64_1_1_0_0_n_n.lhsIdx (ix2 r d)
      ((contrEquiv1 dot_S4096x512_S64x512_S4096x64_1_1_0_0_n_n 512 rfl rfl).symm c) = ix2 r c := by
    funext ax; apply Fin.ext
    match ax with
    | ⟨0, _⟩ => simp [DotDims.lhsIdx, dot_S4096x512_S64x512_S4096x64_1_1_0_0_n_n]; rfl
    | ⟨1, _⟩ => simp [DotDims.lhsIdx, dot_S4096x512_S64x512_S4096x64_1_1_0_0_n_n]; exact c2
  have r2 : dot_S4096x512_S64x512_S4096x64_1_1_0_0_n_n.rhsIdx (ix2 r d)
      ((contrEquiv1 dot_S4096x512_S64x512_S4096x64_1_1_0_0_n_n 512 rfl rfl).symm c) = ix2 d c := by
    funext ax; apply Fin.ext
    match ax with
    | ⟨0, _⟩ => simp [DotDims.rhsIdx, dot_S4096x512_S64x512_S4096x64_1_1_0_0_n_n]; rfl
    | ⟨1, _⟩ => simp [DotDims.rhsIdx, dot_S4096x512_S64x512_S4096x64_1_1_0_0_n_n]; exact c2
  rw [l2, r2]

/-- The product of a 4096 x 64 array with an 8 x 64 one over their second axes, added to zero: entry (r, k) is the sum
    over d of A (r, d) · B (k, d). -/
theorem scoreDot_apply (A : FVec Ideal S4096x64 .bf16) (B : FVec Ideal S8x64 .bf16) (r : Fin 4096) (d : Fin 8) :
    matmul (F := Ideal) dot_S4096x64_S8x64_S4096x8_1_1_0_0_n_n none A B (constant S4096x8 .f32 0x00000000#32) (ix2 r d)
      = ∑ c : Fin 64, A (ix2 r c) * B (ix2 d c) := by
  show FloatOps.matmul _ none A B (constant S4096x8 .f32 0x00000000#32) (ix2 r d) = _
  rw [Ideal.matmul_constant_zero_apply,
    ← Equiv.sum_comp (contrEquiv1 dot_S4096x64_S8x64_S4096x8_1_1_0_0_n_n 64 rfl rfl).symm]
  refine Finset.sum_congr rfl fun c _ => ?_
  have c2 := contrEquiv1_symm_val dot_S4096x64_S8x64_S4096x8_1_1_0_0_n_n 64 rfl rfl c
  have l2 : dot_S4096x64_S8x64_S4096x8_1_1_0_0_n_n.lhsIdx (ix2 r d)
      ((contrEquiv1 dot_S4096x64_S8x64_S4096x8_1_1_0_0_n_n 64 rfl rfl).symm c) = ix2 r c := by
    funext ax; apply Fin.ext
    match ax with
    | ⟨0, _⟩ => simp [DotDims.lhsIdx, dot_S4096x64_S8x64_S4096x8_1_1_0_0_n_n]; rfl
    | ⟨1, _⟩ => simp [DotDims.lhsIdx, dot_S4096x64_S8x64_S4096x8_1_1_0_0_n_n]; exact c2
  have r2 : dot_S4096x64_S8x64_S4096x8_1_1_0_0_n_n.rhsIdx (ix2 r d)
      ((contrEquiv1 dot_S4096x64_S8x64_S4096x8_1_1_0_0_n_n 64 rfl rfl).symm c) = ix2 d c := by
    funext ax; apply Fin.ext
    match ax with
    | ⟨0, _⟩ => simp [DotDims.rhsIdx, dot_S4096x64_S8x64_S4096x8_1_1_0_0_n_n]; rfl
    | ⟨1, _⟩ => simp [DotDims.rhsIdx, dot_S4096x64_S8x64_S4096x8_1_1_0_0_n_n]; exact c2
  rw [l2, r2]

variable (x0 : FVec Ideal S1x4096x512 .f32) (x1 : FVec Ideal S64x512 .bf16) (x2 : FVec Ideal S64 .f32)
  (x3 : FVec Ideal S8x64 .bf16) (x4 : FVec Ideal S8 .f32)

/-- Row `r` of the block: one token. -/
abbrev tok (r : Fin 4096) : Fin 512 → EReal := fun c => x0 (ix3 (0 : Fin 1) r c)
/-- The projection's matrix and offset, the scoring matrix and offset, by coordinates. -/
abbrev mWr : Fin 64 → Fin 512 → EReal := fun d c => x1 (ix2 d c)
abbrev vbr : Fin 64 → EReal := fun d => x2 (ix1 d)
abbrev mWl : Fin 8 → Fin 64 → EReal := fun k d => x3 (ix2 k d)
abbrev vbl : Fin 8 → EReal := fun k => x4 (ix1 k)

/-! ## The projection -/

/-- The block's projection before scaling, as the kernel forms it: the block without its unit axis times the matrix,
    plus the offset copied down the rows. -/
def pre : FVec Ideal S4096x64 .f32 :=
  addf
    (matmul dot_S4096x512_S64x512_S4096x64_1_1_0_0_n_n none
      (truncf .bf16 (shapeCast S4096x512 x0 shapeCasts_S1x4096x512_S4096x512) bitsLt_bf16_f32)
      (shapeCast S64x512 x1 shapeCasts_S64x512_S64x512) (constant S4096x64 .f32 0x00000000#32))
    (broadcastTo S4096x64 (shapeCast S1x64 x2 shapeCasts_S64_S1x64) broadcasts_S1x64_S4096x64)

/-- Entry (r, d) of it is the specification's projection of row r at d: the product's sum over c reads the block at
    (0, r, c) and the matrix at (d, c); the offset's copy reads the offset at d. -/
theorem pre_apply (r : Fin 4096) (d : Fin 64) :
    pre x0 x1 x2 (ix2 r d) = Cert.Vlad.proj (mWr x1) (vbr x2) (tok x0 r) d := by
  unfold pre Cert.Vlad.proj
  refine (addf_apply _ _ (ix2 r d)).trans ?_
  refine congrArg₂ (· + ·) ?_ ?_
  · refine (projDot_apply _ _ r d).trans (Finset.sum_congr rfl fun c _ => ?_)
    refine congrArg₂ (· * ·) ?_ ?_
    · exact shapeCast_1ab_ab_apply x0 _ r c
    · exact congrFun (shapeCast_self x1 _) _
  · refine (broadcastTo_1b_ab_apply _ _ r d).trans ?_
    exact shapeCast_a_1a_apply x2 _ 0 d

/-- The scaled projection of row `r`, coordinate `d`. -/
theorem pay7_apply (r : Fin 4096) (d : Fin 64) :
    k0_pay7 (F := Ideal) x0 x1 x2 (ix2 r d) = Cert.Vlad.dir (mWr x1) (vbr x2) (tok x0 r) d := by
  have e : k0_pay7 (F := Ideal) x0 x1 x2 =
      truncf .bf16 (divf (pre x0 x1 x2)
        (broadcastTo S4096x64
          (maximumf
            (sqrt (shapeCast S4096x1
              (multiReduction .add [1] S4096 (mulf (pre x0 x1 x2) (pre x0 x1 x2)) 0x00000000#32
                reduces_S4096x64_S4096 (.inl rfl) rfl) shapeCasts_S4096_S4096x1))
            (broadcast S4096x1 (Scalar.ofBits .f32 0x2B8CBCCC#32)))
          broadcasts_S4096x1_S4096x64)) bitsLt_bf16_f32 := rfl
  rw [e]
  unfold Cert.Vlad.dir Cert.Vlad.scaled
  -- the quotient, entry by entry
  refine (divf_apply _ _ (ix2 r d)).trans ?_
  refine congrArg₂ Ideal.div (pre_apply x0 x1 x2 r d) ?_
  -- the divisor is the column's entry (r, 0): the larger of the length and the floor
  refine (bcastCol64_apply _ _ r d).trans ?_
  refine (maximumf_apply _ _ _).trans ?_
  refine congrArg₂ max ?_ rfl
  -- the length: the root of the row's sum of squares
  refine congrArg Ideal.sqrt ?_
  refine (castCol_apply _ _ r 0).trans ?_
  refine (rowSum64_apply _ r).trans ?_
  refine Finset.sum_congr rfl fun d' _ => ?_
  refine (mulf_apply _ _ _).trans ?_
  rw [pre_apply]

/-! ## The scores -/

/-- The block's scores, as the kernel forms them: the scaled projection times the scoring matrix, plus the offset
    copied down the rows. -/
def logits : FVec Ideal S4096x8 .f32 :=
  addf
    (matmul dot_S4096x64_S8x64_S4096x8_1_1_0_0_n_n none (k0_pay7 x0 x1 x2)
      (shapeCast S8x64 x3 shapeCasts_S8x64_S8x64) (constant S4096x8 .f32 0x00000000#32))
    (broadcastTo S4096x8 (shapeCast S1x8 x4 shapeCasts_S8_S1x8) broadcasts_S1x8_S4096x8)

/-- Entry (r, k) of them is the specification's score of row r against cluster k: the product's sum over d reads the
    scaled projection at (r, d) and the matrix at (k, d). -/
theorem logits_apply (r : Fin 4096) (k : Fin 8) :
    logits x0 x1 x2 x3 x4 (ix2 r k)
      = Cert.Vlad.score (mWr x1) (vbr x2) (mWl x3) (vbl x4) (tok x0 r) k := by
  unfold logits Cert.Vlad.score
  refine (addf_apply _ _ (ix2 r k)).trans ?_
  refine congrArg₂ (· + ·) ?_ ?_
  · refine (scoreDot_apply _ _ r k).trans (Finset.sum_congr rfl fun d _ => ?_)
    refine congrArg₂ (· * ·) ?_ ?_
    · exact pay7_apply x0 x1 x2 r d
    · exact congrFun (shapeCast_self x3 _) _
  · refine (broadcastTo_1b_ab_apply _ _ r k).trans ?_
    exact shapeCast_a_1a_apply x4 _ 0 k

/-- The lifted score of row `r` against cluster `k`. -/
theorem pay8_apply (r : Fin 4096) (k : Fin 8) :
    k0_pay8 (F := Ideal) x0 x1 x2 x3 x4 (ix2 r k) = Cert.Vlad.lifted (mWr x1) (vbr x2) (mWl x3) (vbl x4) (tok x0 r) k := by
  have e : k0_pay8 (F := Ideal) x0 x1 x2 x3 x4 =
      exp (subf (logits x0 x1 x2 x3 x4)
        (broadcastTo S4096x8
          (shapeCast S4096x1
            (maximumf (broadcast S4096 (Scalar.ofBits .f32 0xFF800000#32))
              (multiReduction .maximumf [1] S4096 (logits x0 x1 x2 x3 x4) 0xFF800000#32
                reduces_S4096x8_S4096 (.inl rfl) rfl))
            shapeCasts_S4096_S4096x1)
          broadcasts_S4096x1_S4096x8)) := rfl
  rw [e]
  unfold Cert.Vlad.lifted Cert.Vlad.peak
  -- the exponential of a difference, entry by entry
  refine congrArg Ideal.exp ?_
  refine (subf_apply _ _ (ix2 r k)).trans ?_
  refine congrArg₂ (· - ·) (logits_apply x0 x1 x2 x3 x4 r k) ?_
  -- what is subtracted is the column's entry (r, 0), the list's entry r: the row's largest score
  refine (bcastCol8_apply _ _ r k).trans ?_
  refine (castCol_apply _ _ r 0).trans ?_
  refine (maximumf_apply _ _ _).trans ?_
  refine congrArg₂ max rfl ?_
  refine (rowMax8_apply _ r).trans ?_
  exact Finset.fold_congr fun k' _ => logits_apply x0 x1 x2 x3 x4 r k'

/-! ## The sum of the lifted scores -/

/-- The sum of row `r`'s lifted scores, copied to every cluster's column. -/
theorem pay9_apply (r : Fin 4096) (k : Fin 8) :
    k0_pay9 (F := Ideal) x0 x1 x2 x3 x4 (ix2 r k) = Cert.Vlad.mass (mWr x1) (vbr x2) (mWl x3) (vbl x4) (tok x0 r) := by
  have e : k0_pay9 (F := Ideal) x0 x1 x2 x3 x4 =
      broadcastTo S4096x8
        (shapeCast S4096x1
          (multiReduction .add [1] S4096 (k0_pay8 x0 x1 x2 x3 x4) 0x00000000#32
            reduces_S4096x8_S4096 (.inl rfl) rfl)
          shapeCasts_S4096_S4096x1)
        broadcasts_S4096x1_S4096x8 := rfl
  rw [e]
  unfold Cert.Vlad.mass
  -- the copy reads the column at (r, 0), the column the list at r, the list the row's sum over the clusters
  refine (bcastCol8_apply _ _ r k).trans ?_
  refine (castCol_apply _ _ r 0).trans ?_
  refine (rowSum8_apply _ r).trans ?_
  exact Finset.sum_congr rfl fun k' _ => pay8_apply x0 x1 x2 x3 x4 r k'

end Cert.KernelIdeal.Token

end
-- ==== Proof.KPool.lean ====
/-
  The kernel's pooling over one block and its last step, read one entry at a time: the weight is the quotient of the
  lifted score by the row's sum; the two running sums each grow by the block's sum over its 4096 rows; and the last step
  is the specification's descriptor of the two running sums and the centres.
-/
import proofs.«129890_j20444044329188_1_alg».proof.Proof.Spec
import proofs.«129890_j20444044329188_1_alg».proof.Proof.Gen.KernelIdeal.Skeleton
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Pool

open Cert.KernelIdeal Cert.KernelIdeal.Gen

/-! ### Sums along one axis

A sum along one axis, read at an entry of what is left, is the sum over that axis's coordinate of the entries whose other
coordinates are the given ones. -/

/-- The column sums of a 4096 x 8 array: entry `k` is the sum over the rows `r` of entry `(r, k)`. -/
theorem colsum_apply (a : FVec Ideal S4096x8 .f32) (k : Fin 8) :
    multiReduction (F := Ideal) .add [0] S8 a 0x00000000#32 reduces_S4096x8_S8 (.inl rfl) rfl (ix1 k)
      = ∑ r : Fin 4096, a (ix2 r k) := by
  refine (Ideal.multiReduction_add_single a 0x00000000#32 reduces_S4096x8_S8 _ _ (ix1 k)).trans ?_
  refine Finset.sum_congr rfl fun r _ => congrArg a (funext fun ax => ?_)
  match ax with
  | ⟨0, _⟩ => rfl
  | ⟨1, _⟩ => rfl

/-- The row sums of an 8 x 64 array: entry `k` is the sum over the columns `d` of entry `(k, d)`. -/
theorem rowsum_apply (x : FVec Ideal S8x64 .f32) (k : Fin 8) :
    multiReduction (F := Ideal) .add [1] S8 x 0x00000000#32 reduces_S8x64_S8 (.inl rfl) rfl (ix1 k)
      = ∑ d : Fin 64, x (ix2 k d) := by
  refine (Ideal.multiReduction_add_single x 0x00000000#32 reduces_S8x64_S8 _ _ (ix1 k)).trans ?_
  refine Finset.sum_congr rfl fun d _ => congrArg x (funext fun ax => ?_)
  match ax with
  | ⟨0, _⟩ => rfl
  | ⟨1, _⟩ => rfl

/-- The sum of an 8 x 1 column over its 8 rows. -/
theorem unitsum_apply (x : FVec Ideal S8x1 .f32) (u : Fin 1) :
    multiReduction (F := Ideal) .add [0] S1 x 0x00000000#32 reduces_S8x1_S1 (.inl rfl) rfl (ix1 u)
      = ∑ k : Fin 8, x (ix2 k u) := by
  refine (Ideal.multiReduction_add_single x 0x00000000#32 reduces_S8x1_S1 _ _ (ix1 u)).trans ?_
  refine Finset.sum_congr rfl fun k _ => congrArg x (funext fun ax => ?_)
  match ax with
  | ⟨0, _⟩ => rfl
  | ⟨1, _⟩ => rfl

/-! ### Reshapes and repeats

A reshape keeps the row-major position; a repeat along a unit axis reads that axis at 0. -/

/-- A vector of 8 written as an 8 x 1 column: entry `(k, 0)` is entry `k` (position `k * 1 + 0 = k`). -/
theorem cast_S8_S8x1_apply {α : Type} (v : S8.Idx → α) (k : Fin 8) (u : Fin 1) :
    shapeCast S8x1 v shapeCasts_S8_S8x1 (ix2 k u) = v (ix1 k) :=
  shapeCast_apply v shapeCasts_S8_S8x1 (ix2 k u) (ix1 k) (by
    have hu : u.val = 0 := by omega
    rw [Shape.rowMajor_val_two, Shape.rowMajor_val_one]
    show k.val = k.val * 1 + u.val
    rw [hu, Nat.mul_one, Nat.add_zero])

/-- A vector of 1 written as a 1 x 1 array. -/
theorem cast_S1_S1x1_apply {α : Type} (v : S1.Idx → α) (u w : Fin 1) :
    shapeCast S1x1 v shapeCasts_S1_S1x1 (ix2 u w) = v (ix1 w) :=
  shapeCast_a_1a_apply v shapeCasts_S1_S1x1 u w

/-- An 8 x 64 array written as 1 x 8 x 64: entry `(0, k, d)` is entry `(k, d)`. -/
theorem cast_S8x64_S1x8x64_apply {α : Type} (v : S8x64.Idx → α) (u : Fin 1) (k : Fin 8) (d : Fin 64) :
    shapeCast S1x8x64 v shapeCasts_S8x64_S1x8x64 (ix3 u k d) = v (ix2 k d) :=
  shapeCast_ab_1ab_apply v shapeCasts_S8x64_S1x8x64 u k d

/-- An 8 x 1 column repeated over 64 columns: entry `(k, d)` is the column's entry `(k, 0)`. -/
theorem bc_S8x1_S8x64_apply {α : Type} (v : S8x1.Idx → α) (k : Fin 8) (d : Fin 64) :
    broadcastTo S8x64 v broadcasts_S8x1_S8x64 (ix2 k d) = v (ix2 k (0 : Fin 1)) := by
  refine broadcastTo_apply v broadcasts_S8x1_S8x64 (ix2 k d) (ix2 k (0 : Fin 1)) fun ax => ?_
  match ax with
  | ⟨0, _⟩ => rfl
  | ⟨1, _⟩ => rfl

/-- A 1 x 1 array repeated over 8 rows and 64 columns: every entry is its one entry. -/
theorem bc_S1x1_S8x64_apply {α : Type} (v : S1x1.Idx → α) (k : Fin 8) (d : Fin 64) :
    broadcastTo S8x64 v broadcasts_S1x1_S8x64 (ix2 k d) = v (ix2 (0 : Fin 1) (0 : Fin 1)) := by
  refine broadcastTo_apply v broadcasts_S1x1_S8x64 (ix2 k d) (ix2 (0 : Fin 1) (0 : Fin 1)) fun ax => ?_
  match ax with
  | ⟨0, _⟩ => rfl
  | ⟨1, _⟩ => rfl

/-! ### The product contracted over the rows

Both factors give up their first axis, the 4096 rows: entry `(k, d)` of the product is the sum over the rows `r` of
entry `(r, k)` of the first factor times entry `(r, d)` of the second. -/

/-- The contraction's dimension numbers, under a short name. -/
abbrev poolDot : DotDims S4096x8 S4096x64 S8x64 := dot_S4096x8_S4096x64_S8x64_0_0_1_1_n_n

/-- At result entry `(k, d)` and row `r` the first factor is read at `(r, k)`. -/
theorem poolDot_lhs (k : Fin 8) (d : Fin 64) (r : Fin 4096) :
    poolDot.lhsIdx (ix2 k d) ((contrEquiv1 poolDot 4096 rfl rfl).symm r) = ix2 r k := by
  have c := contrEquiv1_symm_val poolDot 4096 rfl rfl r
  funext ax; apply Fin.ext
  match ax with
  | ⟨0, _⟩ => simp [DotDims.lhsIdx, poolDot, dot_S4096x8_S4096x64_S8x64_0_0_1_1_n_n]; exact c
  | ⟨1, _⟩ => simp [DotDims.lhsIdx, poolDot, dot_S4096x8_S4096x64_S8x64_0_0_1_1_n_n]; rfl

/-- At result entry `(k, d)` and row `r` the second factor is read at `(r, d)`. -/
theorem poolDot_rhs (k : Fin 8) (d : Fin 64) (r : Fin 4096) :
    poolDot.rhsIdx (ix2 k d) ((contrEquiv1 poolDot 4096 rfl rfl).symm r) = ix2 r d := by
  have c := contrEquiv1_symm_val poolDot 4096 rfl rfl r
  funext ax; apply Fin.ext
  match ax with
  | ⟨0, _⟩ => simp [DotDims.rhsIdx, poolDot, dot_S4096x8_S4096x64_S8x64_0_0_1_1_n_n]; exact c
  | ⟨1, _⟩ => simp [DotDims.rhsIdx, poolDot, dot_S4096x8_S4096x64_S8x64_0_0_1_1_n_n]; rfl

/-- The product into a zero array, at entry `(k, d)`: the sum over the one contracted coordinate, renamed to the row. -/
theorem dot_apply (a : FVec Ideal S4096x8 .bf16) (z : FVec Ideal S4096x64 .bf16) (k : Fin 8) (d : Fin 64) :
    matmul (F := Ideal) dot_S4096x8_S4096x64_S8x64_0_0_1_1_n_n none a z (constant S8x64 .f32 0x00000000#32) (ix2 k d)
      = ∑ r : Fin 4096, a (ix2 r k) * z (ix2 r d) := by
  refine (Ideal.matmul_constant_zero_apply poolDot none a z (ix2 k d)).trans ?_
  rw [← Equiv.sum_comp (contrEquiv1 poolDot 4096 rfl rfl).symm]
  refine Finset.sum_congr rfl fun r _ => ?_
  rw [poolDot_lhs, poolDot_rhs]

/-! ### The block's contributions -/

variable (z : FVec Ideal S4096x64 .bf16) (e s : FVec Ideal S4096x8 .f32)

/-- The weight of row `r` on cluster `k`. -/
theorem pay1_apply (r : Fin 4096) (k : Fin 8) :
    k0_pay1 (F := Ideal) e s (ix2 r k) = Ideal.div (e (ix2 r k)) (s (ix2 r k)) := rfl

/-- The pooled sums after this block: what was there plus the sum over the block's rows of weight times unit vector. -/
theorem pay2_apply (acc : FVec Ideal S8x64 .f32) (k : Fin 8) (d : Fin 64) :
    k0_pay2 (F := Ideal) z e s acc (ix2 k d)
      = acc (ix2 k d) + ∑ r : Fin 4096, Ideal.div (e (ix2 r k)) (s (ix2 r k)) * z (ix2 r d) := by
  unfold k0_pay2
  rw [shapeCast_self]
  show acc (ix2 k d) + matmul (F := Ideal) dot_S4096x8_S4096x64_S8x64_0_0_1_1_n_n none
    (truncf .bf16 (k0_pay1 e s) bitsLt_bf16_f32) z (constant S8x64 .f32 0x00000000#32) (ix2 k d) = _
  rw [dot_apply]
  rfl

/-- The total weights after this block: what was there plus the sum over the block's rows of the weight. -/
theorem pay3_apply (asum : FVec Ideal S8x1 .f32) (k : Fin 8) (u : Fin 1) :
    k0_pay3 (F := Ideal) e s asum (ix2 k u)
      = asum (ix2 k u) + ∑ r : Fin 4096, Ideal.div (e (ix2 r k)) (s (ix2 r k)) := by
  unfold k0_pay3
  rw [shapeCast_self]
  show asum (ix2 k u) + shapeCast S8x1 _ shapeCasts_S8_S8x1 (ix2 k u) = _
  rw [cast_S8_S8x1_apply, colsum_apply]
  rfl

/-! ### The last step, piece by piece

The pooled sums less centre times total weight; then each row divided by the larger of its length and the floor; then the
whole divided by the larger of its length and the floor, the sum of squares taken row by row and then over the rows. -/

/-- The pooled sum less the centre times the cluster's total weight, the weight repeated along the row. -/
theorem resid_apply (cent acc : FVec Ideal S8x64 .f32) (asum : FVec Ideal S8x1 .f32) (k : Fin 8) (d : Fin 64) :
    subf (F := Ideal) acc (mulf cent (broadcastTo S8x64 asum broadcasts_S8x1_S8x64)) (ix2 k d)
      = Cert.Vlad.resid (fun k d => cent (ix2 k d)) (fun k d => acc (ix2 k d)) (fun k => asum (ix2 k (0 : Fin 1))) k d := by
  show acc (ix2 k d) - cent (ix2 k d) * broadcastTo S8x64 asum broadcasts_S8x1_S8x64 (ix2 k d) = _
  rw [bc_S8x1_S8x64_apply]
  rfl

/-- A row divided by the larger of its length and the floor: the length is the root of the row's sum of squares, kept as a
    column and repeated along the row. -/
theorem rowUnit_apply (x : FVec Ideal S8x64 .f32) (k : Fin 8) (d : Fin 64) :
    divf (F := Ideal) x (broadcastTo S8x64
        (maximumf (sqrt (shapeCast S8x1 (multiReduction .add [1] S8 (mulf x x) 0x00000000#32 reduces_S8x64_S8 (.inl rfl) rfl) shapeCasts_S8_S8x1))
          (broadcast S8x1 (Scalar.ofBits .f32 0x2B8CBCCC#32)))
        broadcasts_S8x1_S8x64) (ix2 k d)
      = Cert.Vlad.scaled (fun d => x (ix2 k d)) d := by
  show Ideal.div (x (ix2 k d)) (broadcastTo S8x64 _ broadcasts_S8x1_S8x64 (ix2 k d)) = _
  rw [bc_S8x1_S8x64_apply]
  show Ideal.div (x (ix2 k d)) (max (Ideal.sqrt (shapeCast S8x1 _ shapeCasts_S8_S8x1 (ix2 k (0 : Fin 1)))) _) = _
  rw [cast_S8_S8x1_apply, rowsum_apply]
  rfl

/-- The whole array divided by the larger of its length and the floor: the sum of squares is the sum over the rows of the
    rows' sums of squares, and the one number is repeated over every entry. -/
theorem allUnit_apply (y : FVec Ideal S8x64 .f32) (k : Fin 8) (d : Fin 64) :
    divf (F := Ideal) y (broadcastTo S8x64
        (maximumf (sqrt (shapeCast S1x1
            (multiReduction .add [0] S1
              (shapeCast S8x1 (multiReduction .add [1] S8 (mulf y y) 0x00000000#32 reduces_S8x64_S8 (.inl rfl) rfl) shapeCasts_S8_S8x1)
              0x00000000#32 reduces_S8x1_S1 (.inl rfl) rfl)
            shapeCasts_S1_S1x1))
          (broadcast S1x1 (Scalar.ofBits .f32 0x2B8CBCCC#32)))
        broadcasts_S1x1_S8x64) (ix2 k d)
      = Cert.Vlad.allScaled (fun k d => y (ix2 k d)) k d := by
  show Ideal.div (y (ix2 k d)) (broadcastTo S8x64 _ broadcasts_S1x1_S8x64 (ix2 k d)) = _
  rw [bc_S1x1_S8x64_apply]
  show Ideal.div (y (ix2 k d)) (max (Ideal.sqrt (shapeCast S1x1 _ shapeCasts_S1_S1x1 (ix2 (0 : Fin 1) (0 : Fin 1)))) _) = _
  rw [cast_S1_S1x1_apply, unitsum_apply]
  refine congrArg (fun t => Ideal.div (y (ix2 k d)) (max (Ideal.sqrt t) Cert.Vlad.tiny)) ?_
  refine Finset.sum_congr rfl fun k' _ => ?_
  rw [cast_S8_S8x1_apply, rowsum_apply]
  rfl

/-- The last step: the descriptor of the centres, the pooled sums and the total weights. -/
theorem pay4_apply (cent acc : FVec Ideal S8x64 .f32) (asum : FVec Ideal S8x1 .f32) (u : Fin 1) (k : Fin 8) (d : Fin 64) :
    k0_pay4 (F := Ideal) cent acc asum (ix3 u k d)
      = Cert.Vlad.descriptor (fun k d => cent (ix2 k d)) (fun k d => acc (ix2 k d)) (fun k => asum (ix2 k (0 : Fin 1))) k d := by
  unfold k0_pay4
  rw [cast_S8x64_S1x8x64_apply]
  refine (allUnit_apply _ k d).trans ?_
  unfold Cert.Vlad.descriptor
  refine congrArg (fun w => Cert.Vlad.allScaled w k d) (funext fun k' => funext fun d' => ?_)
  refine (rowUnit_apply _ k' d').trans ?_
  unfold Cert.Vlad.rowScaled
  exact congrArg (fun v => Cert.Vlad.scaled v d') (funext fun d'' => resid_apply cent acc asum k' d'')

/-- The two running sums start from zero. -/
theorem pay5_apply (i : S8x64.Idx) : k0_pay5 (F := Ideal) i = 0 := by
  unfold k0_pay5
  rw [shapeCast_self]
  exact Ideal.ofBits_zero_f32
theorem pay6_apply (i : S8x1.Idx) : k0_pay6 (F := Ideal) i = 0 := by
  unfold k0_pay6
  rw [shapeCast_self]
  exact Ideal.ofBits_zero_f32

end Cert.KernelIdeal.Pool

end
-- ==== Proof.KBridge.lean ====
/-
  The kernel's result array in the specification's words. Each input block is its array read where the grid point says:
  the tokens' block at point 2b + j is rows 4096 j … 4096 j + 4095 of sequence b, the other five blocks are their whole
  arrays (the two matrices after a change of format, which changes no value). A block's contribution to the two running
  sums is the sum over its 4096 rows of the token functions of the specification; two blocks added in order from zero
  are the sum over all 8192 tokens, because a finite sum of extended reals may be cut in two. So entry (b, k, d) of the
  result array is the descriptor of sequence b.
-/
import proofs.«129890_j20444044329188_1_alg».proof.Proof.Spec
import proofs.«129890_j20444044329188_1_alg».proof.Proof.KChain
import proofs.«129890_j20444044329188_1_alg».proof.Proof.KToken
import proofs.«129890_j20444044329188_1_alg».proof.Proof.KPool
import Idealize.ShloMosaic.Lib.ValueIdx
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.KernelIdeal.Case Cert.KernelIdeal.Chain Cert.KernelIdeal.Token Cert.KernelIdeal.Pool

variable (m : (ℓ : Loc nD τ sig) → Buf (Elt Ideal) ℓ)

/-! ## The arguments by coordinates -/

/-- Token `mm` of sequence `b`, coordinate `cc`. -/
abbrev X (c : Dev nD) (b : Fin 32) (mm : Fin 8192) (cc : Fin 512) : EReal :=
  (m ((c : Thread nD τ).loc main_arg0) : S32x8192x512.Idx → EReal) (ix3 b mm cc)
/-- The projection's matrix and offset, the scoring matrix and offset, the centres. -/
abbrev Wr (c : Dev nD) (d : Fin 64) (cc : Fin 512) : EReal := (m ((c : Thread nD τ).loc main_arg2) : S64x512.Idx → EReal) (ix2 d cc)
abbrev br (c : Dev nD) (d : Fin 64) : EReal := (m ((c : Thread nD τ).loc main_arg3) : S64.Idx → EReal) (ix1 d)
abbrev Wl (c : Dev nD) (k : Fin 8) (d : Fin 64) : EReal := (m ((c : Thread nD τ).loc main_arg4) : S8x64.Idx → EReal) (ix2 k d)
abbrev bl (c : Dev nD) (k : Fin 8) : EReal := (m ((c : Thread nD τ).loc main_arg5) : S8.Idx → EReal) (ix1 k)
abbrev Ce (c : Dev nD) (k : Fin 8) (d : Fin 64) : EReal := (m ((c : Thread nD τ).loc main_arg6) : S8x64.Idx → EReal) (ix2 k d)

/-! ## The blocks -/

theorem idx_facts0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 1) = 0 :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)
theorem idx_facts4 : ∀ t : Fin cfg0.N, win0_4.index t (0 : Fin 1) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)

/-- The two matrices as the kernel finds them: the host's change of format of the arguments. -/
theorem hostWr (c : Dev nD) :
    (V m c main_v0 : S64x512.Idx → EReal)
      = (truncf (F := Ideal) .bf16 (m ((c : Thread nD τ).loc main_arg2) : FVec Ideal S64x512 .f32) bitsLt_bf16_f32 : FVec Ideal S64x512 .bf16) := by
  show StableHlo.after hostOps0 (fun b => m (c, b)) (Proc.devRef .tc main_v0) = _
  after_results
theorem hostWl (c : Dev nD) :
    (V m c main_v1 : S8x64.Idx → EReal)
      = (truncf (F := Ideal) .bf16 (m ((c : Thread nD τ).loc main_arg4) : FVec Ideal S8x64 .f32) bitsLt_bf16_f32 : FVec Ideal S8x64 .bf16) := by
  show StableHlo.after hostOps0 (fun b => m (c, b)) (Proc.devRef .tc main_v1) = _
  after_results

/-- Row `r` of the tokens' block at point `2 b + j` is token `4096 j + r` of sequence `b`. -/
theorem tokB_apply (c : Dev nD) (t : Fin cfg0.N) (b : Fin 32) (j : Fin 2) (ht : t.val = 2 * b.val + j.val)
    (r : Fin 4096) (cc : Fin 512) :
    tokB m c t (ix3 (0 : Fin 1) r cc) = X m c b ⟨4096 * j.val + r.val, by omega⟩ cc := by
  obtain ⟨e0, e1, e2⟩ := idx_facts0 t
  show iblk m c 0 t (ix3 (0 : Fin 1) r cc) = _
  unfold iblk
  rw [View.read_apply]
  show V m c main_arg0 (((cfg0.win 0).blk t).view.emb (ix3 (0 : Fin 1) r cc)) = _
  rw [V_main_arg0]
  refine congrArg (m ((c : Thread nD τ).loc main_arg0)) (funext fun a => Fin.ext ?_)
  match a with
  | ⟨0, _⟩ => show win0_0.index t (0 : Fin 3) * 1 + 1 * 0 = b.val; rw [e0, ht]; omega
  | ⟨1, _⟩ => show win0_0.index t (1 : Fin 3) * 4096 + 1 * r.val = 4096 * j.val + r.val; rw [e1, ht]; omega
  | ⟨2, _⟩ => show win0_0.index t (2 : Fin 3) * 512 + 1 * cc.val = cc.val; rw [e2]; omega

theorem wrB_apply (c : Dev nD) (t : Fin cfg0.N) (d : Fin 64) (cc : Fin 512) : wrB m c t (ix2 d cc) = Wr m c d cc := by
  obtain ⟨e0, e1⟩ := idx_facts1 t
  show iblk m c 1 t (ix2 d cc) = _
  unfold iblk
  rw [View.read_apply]
  show (V m c main_v0 : S64x512.Idx → EReal) (((cfg0.win 1).blk t).view.emb (ix2 d cc)) = _
  rw [hostWr]
  show m ((c : Thread nD τ).loc main_arg2) (((cfg0.win 1).blk t).view.emb (ix2 d cc)) = _
  refine congrArg (m ((c : Thread nD τ).loc main_arg2)) (funext fun a => Fin.ext ?_)
  match a with
  | ⟨0, _⟩ => show win0_1.index t (0 : Fin 2) * 64 + 1 * d.val = d.val; rw [e0]; omega
  | ⟨1, _⟩ => show win0_1.index t (1 : Fin 2) * 512 + 1 * cc.val = cc.val; rw [e1]; omega

theorem brB_apply (c : Dev nD) (t : Fin cfg0.N) (d : Fin 64) : brB m c t (ix1 d) = br m c d := by
  have e0 := idx_facts2 t
  show iblk m c 2 t (ix1 d) = _
  unfold iblk
  rw [View.read_apply]
  show V m c main_arg3 (((cfg0.win 2).blk t).view.emb (ix1 d)) = _
  rw [V_main_arg3]
  refine congrArg (m ((c : Thread nD τ).loc main_arg3)) (funext fun a => Fin.ext ?_)
  match a with
  | ⟨0, _⟩ => show win0_2.index t (0 : Fin 1) * 64 + 1 * d.val = d.val; rw [e0]; omega

theorem wlB_apply (c : Dev nD) (t : Fin cfg0.N) (k : Fin 8) (d : Fin 64) : wlB m c t (ix2 k d) = Wl m c k d := by
  obtain ⟨e0, e1⟩ := idx_facts3 t
  show iblk m c 3 t (ix2 k d) = _
  unfold iblk
  rw [View.read_apply]
  show (V m c main_v1 : S8x64.Idx → EReal) (((cfg0.win 3).blk t).view.emb (ix2 k d)) = _
  rw [hostWl]
  show m ((c : Thread nD τ).loc main_arg4) (((cfg0.win 3).blk t).view.emb (ix2 k d)) = _
  refine congrArg (m ((c : Thread nD τ).loc main_arg4)) (funext fun a => Fin.ext ?_)
  match a with
  | ⟨0, _⟩ => show win0_3.index t (0 : Fin 2) * 8 + 1 * k.val = k.val; rw [e0]; omega
  | ⟨1, _⟩ => show win0_3.index t (1 : Fin 2) * 64 + 1 * d.val = d.val; rw [e1]; omega

theorem blB_apply (c : Dev nD) (t : Fin cfg0.N) (k : Fin 8) : blB m c t (ix1 k) = bl m c k := by
  have e0 := idx_facts4 t
  show iblk m c 4 t (ix1 k) = _
  unfold iblk
  rw [View.read_apply]
  show V m c main_arg5 (((cfg0.win 4).blk t).view.emb (ix1 k)) = _
  rw [V_main_arg5]
  refine congrArg (m ((c : Thread nD τ).loc main_arg5)) (funext fun a => Fin.ext ?_)
  match a with
  | ⟨0, _⟩ => show win0_4.index t (0 : Fin 1) * 8 + 1 * k.val = k.val; rw [e0]; omega

theorem ceB_apply (c : Dev nD) (t : Fin cfg0.N) (k : Fin 8) (d : Fin 64) : ceB m c t (ix2 k d) = Ce m c k d := by
  obtain ⟨e0, e1⟩ := idx_facts5 t
  show iblk m c 5 t (ix2 k d) = _
  unfold iblk
  rw [View.read_apply]
  show V m c main_arg6 (((cfg0.win 5).blk t).view.emb (ix2 k d)) = _
  rw [V_main_arg6]
  refine congrArg (m ((c : Thread nD τ).loc main_arg6)) (funext fun a => Fin.ext ?_)
  match a with
  | ⟨0, _⟩ => show win0_5.index t (0 : Fin 2) * 8 + 1 * k.val = k.val; rw [e0]; omega
  | ⟨1, _⟩ => show win0_5.index t (1 : Fin 2) * 64 + 1 * d.val = d.val; rw [e1]; omega

/-! ## One block's contribution -/

/-- A block adds to the pooled sums the sum over its rows of weight times unit vector. -/
theorem accStep_apply (x0 : FVec Ideal S1x4096x512 .f32) (x1 : FVec Ideal S64x512 .bf16) (x2 : FVec Ideal S64 .f32)
    (x3 : FVec Ideal S8x64 .bf16) (x4 : FVec Ideal S8 .f32) (acc : FVec Ideal S8x64 .f32) (k : Fin 8) (d : Fin 64) :
    accStep (F := Ideal) x0 x1 x2 x3 x4 acc (ix2 k d) = acc (ix2 k d) + ∑ r : Fin 4096,
      Cert.Vlad.weight (mWr x1) (vbr x2) (mWl x3) (vbl x4) (tok x0 r) k * Cert.Vlad.dir (mWr x1) (vbr x2) (tok x0 r) d := by
  refine (pay2_apply (k0_pay7 (F := Ideal) x0 x1 x2) (k0_pay8 (F := Ideal) x0 x1 x2 x3 x4) (k0_pay9 (F := Ideal) x0 x1 x2 x3 x4) acc k d).trans ?_
  refine congrArg (acc (ix2 k d) + ·) (Finset.sum_congr rfl fun r _ => ?_)
  rw [pay8_apply, pay9_apply, pay7_apply]
  rfl

/-- A block adds to the total weights the sum over its rows of the weight. -/
theorem sumStep_apply (x0 : FVec Ideal S1x4096x512 .f32) (x1 : FVec Ideal S64x512 .bf16) (x2 : FVec Ideal S64 .f32)
    (x3 : FVec Ideal S8x64 .bf16) (x4 : FVec Ideal S8 .f32) (asum : FVec Ideal S8x1 .f32) (k : Fin 8) (u : Fin 1) :
    sumStep (F := Ideal) x0 x1 x2 x3 x4 asum (ix2 k u) = asum (ix2 k u) + ∑ r : Fin 4096,
      Cert.Vlad.weight (mWr x1) (vbr x2) (mWl x3) (vbl x4) (tok x0 r) k := by
  refine (pay3_apply (k0_pay8 (F := Ideal) x0 x1 x2 x3 x4) (k0_pay9 (F := Ideal) x0 x1 x2 x3 x4) asum k u).trans ?_
  refine congrArg (asum (ix2 k u) + ·) (Finset.sum_congr rfl fun r _ => ?_)
  rw [pay8_apply, pay9_apply]
  rfl

/-! ## Two halves of a sum -/

/-- A sum over 8192 terms is the sum over the first 4096 added to zero, plus the sum over the last 4096. -/
theorem sum_halves {M : Type*} [AddCommMonoid M] (f : Fin 8192 → M) :
    (0 + ∑ r : Fin 4096, f ⟨4096 * 0 + r.val, by omega⟩) + ∑ r : Fin 4096, f ⟨4096 * 1 + r.val, by omega⟩
      = ∑ mm : Fin 8192, f mm := by
  rw [zero_add]
  refine Eq.trans ?_ (Fin.sum_univ_add (a := 4096) (b := 4096) (f : Fin (4096 + 4096) → M)).symm
  refine congrArg₂ (· + ·) (Finset.sum_congr rfl fun r _ => congrArg f (Fin.ext ?_))
    (Finset.sum_congr rfl fun r _ => congrArg f (Fin.ext ?_))
  · show 4096 * 0 + r.val = r.val; omega
  · show 4096 * 1 + r.val = 4096 + r.val; omega

/-! ## The result array -/

/-- The tokens of sequence `b`, one row each. -/
abbrev seq (c : Dev nD) (b : Fin 32) : Fin 8192 → Fin 512 → EReal := fun mm => X m c b mm

/-- Block `j` of sequence `b` adds to the pooled sums the sum over its 4096 tokens. -/
theorem acc_block (c : Dev nD) (t : Fin cfg0.N) (b : Fin 32) (j : Fin 2) (ht : t.val = 2 * b.val + j.val)
    (acc : FVec Ideal S8x64 .f32) (k : Fin 8) (d : Fin 64) :
    accStep (F := Ideal) (tokB m c t) (wrB m c t) (brB m c t) (wlB m c t) (blB m c t) acc (ix2 k d)
      = acc (ix2 k d) + ∑ r : Fin 4096,
          Cert.Vlad.weight (Wr m c) (br m c) (Wl m c) (bl m c) (seq m c b ⟨4096 * j.val + r.val, by omega⟩) k
            * Cert.Vlad.dir (Wr m c) (br m c) (seq m c b ⟨4096 * j.val + r.val, by omega⟩) d := by
  refine (accStep_apply (tokB m c t) (wrB m c t) (brB m c t) (wlB m c t) (blB m c t) acc k d).trans ?_
  have hWr : mWr (wrB m c t) = Wr m c := funext fun d' => funext fun cc => wrB_apply m c t d' cc
  have hbr : vbr (brB m c t) = br m c := funext fun d' => brB_apply m c t d'
  have hWl : mWl (wlB m c t) = Wl m c := funext fun k' => funext fun d' => wlB_apply m c t k' d'
  have hbl : vbl (blB m c t) = bl m c := funext fun k' => blB_apply m c t k'
  have htok : ∀ r : Fin 4096, tok (tokB m c t) r = seq m c b ⟨4096 * j.val + r.val, by omega⟩ :=
    fun r => funext fun cc => tokB_apply m c t b j ht r cc
  rw [hWr, hbr, hWl, hbl]
  exact congrArg (acc (ix2 k d) + ·) (Finset.sum_congr rfl fun r _ => by rw [htok r])

/-- Block `j` of sequence `b` adds to the total weights the sum over its 4096 tokens. -/
theorem sum_block (c : Dev nD) (t : Fin cfg0.N) (b : Fin 32) (j : Fin 2) (ht : t.val = 2 * b.val + j.val)
    (asum : FVec Ideal S8x1 .f32) (k : Fin 8) (u : Fin 1) :
    sumStep (F := Ideal) (tokB m c t) (wrB m c t) (brB m c t) (wlB m c t) (blB m c t) asum (ix2 k u)
      = asum (ix2 k u) + ∑ r : Fin 4096,
          Cert.Vlad.weight (Wr m c) (br m c) (Wl m c) (bl m c) (seq m c b ⟨4096 * j.val + r.val, by omega⟩) k := by
  refine (sumStep_apply (tokB m c t) (wrB m c t) (brB m c t) (wlB m c t) (blB m c t) asum k u).trans ?_
  have hWr : mWr (wrB m c t) = Wr m c := funext fun d' => funext fun cc => wrB_apply m c t d' cc
  have hbr : vbr (brB m c t) = br m c := funext fun d' => brB_apply m c t d'
  have hWl : mWl (wlB m c t) = Wl m c := funext fun k' => funext fun d' => wlB_apply m c t k' d'
  have hbl : vbl (blB m c t) = bl m c := funext fun k' => blB_apply m c t k'
  have htok : ∀ r : Fin 4096, tok (tokB m c t) r = seq m c b ⟨4096 * j.val + r.val, by omega⟩ :=
    fun r => funext fun cc => tokB_apply m c t b j ht r cc
  rw [hWr, hbr, hWl, hbl]
  exact congrArg (asum (ix2 k u) + ·) (Finset.sum_congr rfl fun r _ => by rw [htok r])

/-- Entry (b, k, d) of the kernel's result array is the descriptor of sequence `b`. -/
theorem G_eq (c : Dev nD) (b : Fin 32) (k : Fin 8) (d : Fin 64) :
    G m c (ix3 b k d) = Cert.Vlad.descriptor (Ce m c)
      (Cert.Vlad.pooled (Wr m c) (br m c) (Wl m c) (bl m c) (seq m c b))
      (Cert.Vlad.total (Wr m c) (br m c) (Wl m c) (bl m c) (seq m c b)) k d := by
  have hN : cfg0.N = 64 := N_0
  have h1 : (ptOf b.val b.isLt 1 (by decide)).val = 2 * b.val + (1 : Fin 2).val := rfl
  have h0 : (ptOf b.val b.isLt 0 (by decide)).val = 2 * b.val + (0 : Fin 2).val := rfl
  rw [G_apply m c (ix3 b k d) (ptOf b.val b.isLt 1 (by decide)) (ptOf b.val b.isLt 0 (by decide)) (ix3 (0 : Fin 1) k d) rfl rfl rfl rfl]
  unfold lastBlock
  refine (pay4_apply _ _ _ (0 : Fin 1) k d).trans ?_
  have hCe : (fun k d => ceB m c (ptOf b.val b.isLt 1 (by decide)) (ix2 k d)) = Ce m c :=
    funext fun k' => funext fun d' => ceB_apply m c _ k' d'
  have hP : (fun k d => accStep (F := Ideal) (tokB m c (ptOf b.val b.isLt 1 (by decide))) (wrB m c (ptOf b.val b.isLt 1 (by decide))) (brB m c (ptOf b.val b.isLt 1 (by decide))) (wlB m c (ptOf b.val b.isLt 1 (by decide))) (blB m c (ptOf b.val b.isLt 1 (by decide)))
        (accStep (tokB m c (ptOf b.val b.isLt 0 (by decide))) (wrB m c (ptOf b.val b.isLt 0 (by decide))) (brB m c (ptOf b.val b.isLt 0 (by decide))) (wlB m c (ptOf b.val b.isLt 0 (by decide))) (blB m c (ptOf b.val b.isLt 0 (by decide))) (k0_pay5 (F := Ideal))) (ix2 k d))
      = Cert.Vlad.pooled (Wr m c) (br m c) (Wl m c) (bl m c) (seq m c b) := by
    funext k' d'
    rw [acc_block m c _ b 1 h1, acc_block m c _ b 0 h0, pay5_apply]
    exact sum_halves fun mm => Cert.Vlad.weight (Wr m c) (br m c) (Wl m c) (bl m c) (seq m c b mm) k'
      * Cert.Vlad.dir (Wr m c) (br m c) (seq m c b mm) d'
  have hS : (fun k => sumStep (F := Ideal) (tokB m c (ptOf b.val b.isLt 1 (by decide))) (wrB m c (ptOf b.val b.isLt 1 (by decide))) (brB m c (ptOf b.val b.isLt 1 (by decide))) (wlB m c (ptOf b.val b.isLt 1 (by decide))) (blB m c (ptOf b.val b.isLt 1 (by decide)))
        (sumStep (tokB m c (ptOf b.val b.isLt 0 (by decide))) (wrB m c (ptOf b.val b.isLt 0 (by decide))) (brB m c (ptOf b.val b.isLt 0 (by decide))) (wlB m c (ptOf b.val b.isLt 0 (by decide))) (blB m c (ptOf b.val b.isLt 0 (by decide))) (k0_pay6 (F := Ideal))) (ix2 k (0 : Fin 1)))
      = Cert.Vlad.total (Wr m c) (br m c) (Wl m c) (bl m c) (seq m c b) := by
    funext k'
    rw [sum_block m c _ b 1 h1, sum_block m c _ b 0 h0, pay6_apply]
    exact sum_halves fun mm => Cert.Vlad.weight (Wr m c) (br m c) (Wl m c) (bl m c) (seq m c b mm) k'
  rw [hCe, hP, hS]

end Cert.KernelIdeal.Bridge

end
-- ==== Proof.KRun.lean ====
/-
  The kernel program's run, read: every execution ends with the result buffer at the reshape of the kernel's result
  array and with the seven arguments as they were.
-/
import proofs.«129890_j20444044329188_1_alg».proof.Proof.KChain

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c.tc : Thread nD τ).loc main_v3) = shapeCast S32x512 (G m c) shapeCasts_S32x8x64_S32x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

end Cert.KernelIdeal.Chain

end
-- ==== Proof.RefArgs.lean ====
/-
  The reference program's six float arguments read by coordinates: the tokens, the projection's matrix and offset,
  the scoring matrix and offset, and the cluster centres, as functions of their indices.
-/
import proofs.«129890_j20444044329188_1_alg».proof.ReferenceIdeal
import Idealize.ShloMosaic.Lib.ValueIdx

noncomputable section

open Idealize.ShloMosaic Idealize.ShloMosaic.TcCoe Idealize.SL.Sem Idealize.ShloMosaic.ValueIdx

namespace Cert.ReferenceIdeal.Args

open Cert.ReferenceIdeal

variable (V0 : Valuation τ sig (Elt Ideal))

/-- Token `m` of sequence `b`, coordinate `c`. -/
abbrev X (b : Fin 32) (m : Fin 8192) (c : Fin 512) : EReal :=
  (V0 (Proc.devRef .tc main_arg0) : S32x8192x512.Idx → EReal) (ix3 b m c)
/-- The projection's matrix. -/
abbrev Wr (d : Fin 64) (c : Fin 512) : EReal := (V0 (Proc.devRef .tc main_arg2) : S64x512.Idx → EReal) (ix2 d c)
/-- The projection's offset. -/
abbrev br (d : Fin 64) : EReal := (V0 (Proc.devRef .tc main_arg3) : S64.Idx → EReal) (ix1 d)
/-- The scoring matrix. -/
abbrev Wl (k : Fin 8) (d : Fin 64) : EReal := (V0 (Proc.devRef .tc main_arg4) : S8x64.Idx → EReal) (ix2 k d)
/-- The scoring offset. -/
abbrev bl (k : Fin 8) : EReal := (V0 (Proc.devRef .tc main_arg5) : S8.Idx → EReal) (ix1 k)
/-- The cluster centres. -/
abbrev Ce (k : Fin 8) (d : Fin 64) : EReal := (V0 (Proc.devRef .tc main_arg6) : S8x64.Idx → EReal) (ix2 k d)

end Cert.ReferenceIdeal.Args

end
-- ==== Proof.RefStages.lean ====
/-
  The reference run's named stages read by coordinates: the unit vectors, the weights, the residuals and the row-scaled
  array, and the run's result written out once as a function of the arguments.
-/
import proofs.«129890_j20444044329188_1_alg».proof.Proof.RefArgs
import proofs.«129890_j20444044329188_1_alg».proof.Proof.Gen.ReferenceIdeal.Run

noncomputable section

open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Value

variable (V0 : Valuation τ sig (Elt Ideal))

/-- The unit vector of token `m` of sequence `b`, coordinate `d`. -/
abbrev dirAt (b : Fin 32) (m : Fin 8192) (d : Fin 64) : EReal := (res_main_v11 V0 : S32x8192x64.Idx → EReal) (ix3 b m d)
/-- The weight of token `m` of sequence `b` on cluster `k`. -/
abbrev weightAt (b : Fin 32) (m : Fin 8192) (k : Fin 8) : EReal := (res_main_v26 V0 : S32x8192x8.Idx → EReal) (ix3 b m k)
/-- Sequence `b`'s pooled sums and total weights, as the reference takes them: over all 8192 tokens at once. -/
abbrev pooledAt (b : Fin 32) : Fin 8 → Fin 64 → EReal := fun k d => ∑ m : Fin 8192, weightAt V0 b m k * dirAt V0 b m d
abbrev totalAt (b : Fin 32) : Fin 8 → EReal := fun k => ∑ m : Fin 8192, weightAt V0 b m k
/-- The residual of sequence `b`. -/
abbrev residAt (b : Fin 32) (k : Fin 8) (d : Fin 64) : EReal := (res_main_v34 V0 : S32x8x64.Idx → EReal) (ix3 b k d)
/-- Entry (k, d) of an 8 x 64 array laid out as 512 numbers, rows first. -/
abbrev flat (k : Fin 8) (d : Fin 64) : Fin 512 := ⟨64 * k.val + d.val, by have := k.isLt; have := d.isLt; omega⟩
/-- The row-scaled array of sequence `b`, laid out as 512 numbers. -/
abbrev rowAt (b : Fin 32) (j : Fin 512) : EReal := (res_main_v43 V0 : S32x512.Idx → EReal) (ix2 b j)

/-- The run's result: the row-scaled array divided by the larger of its length and the floor. -/
def result : S32x512.Idx → EReal :=
  Host.divf (F := Ideal) (res_main_v43 V0) (broadcastInDim S32x512 ![0, 1] bcast_S32x1_S32x512_0_1 (maximumf (Host.sqrt (F := Ideal) (broadcastInDim S32x1 ![0] bcast_S32_S32x1_0 (Host.reduceAdd (F := Ideal) (mulf (res_main_v43 V0) (res_main_v43 V0)) (constant (F := Ideal) S_ .f32 0x00000000#32) reducesTo_S32x512_S32_d1 h_S_))) (broadcastInDim S32x1 ![] bcast_S_S32x1 (constant (F := Ideal) S_ .f32 0x2B8CBCCC#32))))

end Cert.ReferenceIdeal.Stages

end
-- ==== Proof.RToken.lean ====
/-
  The reference's work on the tokens, read one entry at a time: for every sequence and token, the unit vector and the
  weight it computes on the whole array are the specification's token functions applied to that token.

  First each operation that moves entries is read at an index: a contraction is the sum over the contracted
  coordinate, an offset spread over the tokens reads its own entry, a number per token spread along a last axis reads
  the token's number, a sum or maximum along the last axis is the sum or fold over that axis's coordinates. Then the
  five stages (projection, unit vector, score, shifted exponential, weight) are read at an index in turn, each from
  the one before, and each is the specification's function of the same name.
-/
import proofs.«129890_j20444044329188_1_alg».proof.Proof.Spec
import proofs.«129890_j20444044329188_1_alg».proof.Proof.RefStages
import Idealize.ShloMosaic.Lib.ValueIdx
import Idealize.ShloMosaic.Lib.IdealHost
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Token

open Cert.ReferenceIdeal Cert.ReferenceIdeal.Gen Cert.ReferenceIdeal.Value Cert.ReferenceIdeal.Args Cert.ReferenceIdeal.Stages

variable (V0 : Valuation τ sig (Elt Ideal))

/-- The contraction of the tokens with the projection's matrix, one entry: the sum over the 512 input coordinates. -/
theorem dot1_apply (A : FVec Ideal S32x8192x512 .f32) (B : FVec Ideal S64x512 .f32) (b : Fin 32) (m : Fin 8192) (d : Fin 64) :
    Host.dotGeneral (F := Ideal) dot_S32x8192x512_S64x512_S32x8192x64_2_1_01_0_n_n none A B (ix3 b m d)
      = ∑ c : Fin 512, A (ix3 b m c) * B (ix2 d c) := by
  show FloatOps.dotGeneral _ none _ A B (ix3 b m d) = _
  rw [Ideal.dotGeneral_apply,
    ← Equiv.sum_comp (contrEquiv1 dot_S32x8192x512_S64x512_S32x8192x64_2_1_01_0_n_n 512 rfl rfl).symm]
  refine Finset.sum_congr rfl fun c _ => ?_
  have c3 := contrEquiv1_symm_val dot_S32x8192x512_S64x512_S32x8192x64_2_1_01_0_n_n 512 rfl rfl c
  have l3 : dot_S32x8192x512_S64x512_S32x8192x64_2_1_01_0_n_n.lhsIdx (ix3 b m d)
      ((contrEquiv1 _ 512 rfl rfl).symm c) = ix3 b m c := by
    funext ax; apply Fin.ext
    match ax with
    | ⟨0, _⟩ => simp [DotDims.lhsIdx, dot_S32x8192x512_S64x512_S32x8192x64_2_1_01_0_n_n]; rfl
    | ⟨1, _⟩ => simp [DotDims.lhsIdx, dot_S32x8192x512_S64x512_S32x8192x64_2_1_01_0_n_n]; rfl
    | ⟨2, _⟩ => simp [DotDims.lhsIdx, dot_S32x8192x512_S64x512_S32x8192x64_2_1_01_0_n_n]; exact c3
  have r3 : dot_S32x8192x512_S64x512_S32x8192x64_2_1_01_0_n_n.rhsIdx (ix3 b m d)
      ((contrEquiv1 _ 512 rfl rfl).symm c) = ix2 d c := by
    funext ax; apply Fin.ext
    match ax with
    | ⟨0, _⟩ => simp [DotDims.rhsIdx, dot_S32x8192x512_S64x512_S32x8192x64_2_1_01_0_n_n]; rfl
    | ⟨1, _⟩ => simp [DotDims.rhsIdx, dot_S32x8192x512_S64x512_S32x8192x64_2_1_01_0_n_n]; exact c3
  rw [l3, r3]

/-- The contraction of the unit vectors with the scoring matrix, one entry: the sum over the 64 coordinates. -/
theorem dot2_apply (A : FVec Ideal S32x8192x64 .f32) (B : FVec Ideal S8x64 .f32) (b : Fin 32) (m : Fin 8192) (k : Fin 8) :
    Host.dotGeneral (F := Ideal) dot_S32x8192x64_S8x64_S32x8192x8_2_1_01_0_n_n none A B (ix3 b m k)
      = ∑ d : Fin 64, A (ix3 b m d) * B (ix2 k d) := by
  show FloatOps.dotGeneral _ none _ A B (ix3 b m k) = _
  rw [Ideal.dotGeneral_apply,
    ← Equiv.sum_comp (contrEquiv1 dot_S32x8192x64_S8x64_S32x8192x8_2_1_01_0_n_n 64 rfl rfl).symm]
  refine Finset.sum_congr rfl fun d _ => ?_
  have c3 := contrEquiv1_symm_val dot_S32x8192x64_S8x64_S32x8192x8_2_1_01_0_n_n 64 rfl rfl d
  have l3 : dot_S32x8192x64_S8x64_S32x8192x8_2_1_01_0_n_n.lhsIdx (ix3 b m k)
      ((contrEquiv1 _ 64 rfl rfl).symm d) = ix3 b m d := by
    funext ax; apply Fin.ext
    match ax with
    | ⟨0, _⟩ => simp [DotDims.lhsIdx, dot_S32x8192x64_S8x64_S32x8192x8_2_1_01_0_n_n]; rfl
    | ⟨1, _⟩ => simp [DotDims.lhsIdx, dot_S32x8192x64_S8x64_S32x8192x8_2_1_01_0_n_n]; rfl
    | ⟨2, _⟩ => simp [DotDims.lhsIdx, dot_S32x8192x64_S8x64_S32x8192x8_2_1_01_0_n_n]; exact c3
  have r3 : dot_S32x8192x64_S8x64_S32x8192x8_2_1_01_0_n_n.rhsIdx (ix3 b m k)
      ((contrEquiv1 _ 64 rfl rfl).symm d) = ix2 k d := by
    funext ax; apply Fin.ext
    match ax with
    | ⟨0, _⟩ => simp [DotDims.rhsIdx, dot_S32x8192x64_S8x64_S32x8192x8_2_1_01_0_n_n]; rfl
    | ⟨1, _⟩ => simp [DotDims.rhsIdx, dot_S32x8192x64_S8x64_S32x8192x8_2_1_01_0_n_n]; exact c3
  rw [l3, r3]

/-- An offset of 64 numbers spread over every sequence and token reads the offset's own entry. -/
theorem bias64_apply (v : FVec Ideal S64 .f32) (b : Fin 32) (m : Fin 8192) (d : Fin 64) :
    broadcastInDim S32x8192x64 ![0, 1, 2] bcast_S1x1x64_S32x8192x64_0_1_2
      (broadcastInDim S1x1x64 ![2] bcast_S64_S1x1x64_2 v) (ix3 b m d) = v (ix1 d) := by
  refine (broadcastInDim_apply ![0, 1, 2] bcast_S1x1x64_S32x8192x64_0_1_2 _ (ix3 b m d)
    (ix3 (0 : Fin 1) (0 : Fin 1) d) (fun a => ?_)).trans ?_
  · match a with
    | ⟨0, _⟩ => rfl
    | ⟨1, _⟩ => rfl
    | ⟨2, _⟩ => rfl
  · exact broadcastInDim_apply ![2] bcast_S64_S1x1x64_2 v (ix3 (0 : Fin 1) (0 : Fin 1) d) (ix1 d) (fun a => by
      match a with
      | ⟨0, _⟩ => rfl)

/-- An offset of 8 numbers spread over every sequence and token reads the offset's own entry. -/
theorem bias8_apply (v : FVec Ideal S8 .f32) (b : Fin 32) (m : Fin 8192) (k : Fin 8) :
    broadcastInDim S32x8192x8 ![0, 1, 2] bcast_S1x1x8_S32x8192x8_0_1_2
      (broadcastInDim S1x1x8 ![2] bcast_S8_S1x1x8_2 v) (ix3 b m k) = v (ix1 k) := by
  refine (broadcastInDim_apply ![0, 1, 2] bcast_S1x1x8_S32x8192x8_0_1_2 _ (ix3 b m k)
    (ix3 (0 : Fin 1) (0 : Fin 1) k) (fun a => ?_)).trans ?_
  · match a with
    | ⟨0, _⟩ => rfl
    | ⟨1, _⟩ => rfl
    | ⟨2, _⟩ => rfl
  · exact broadcastInDim_apply ![2] bcast_S8_S1x1x8_2 v (ix3 (0 : Fin 1) (0 : Fin 1) k) (ix1 k) (fun a => by
      match a with
      | ⟨0, _⟩ => rfl)

/-- A number per token given a unit last axis reads the token's number. -/
theorem keep_apply (x : FVec Ideal S32x8192 .f32) (b : Fin 32) (m : Fin 8192) (z : Fin 1) :
    broadcastInDim S32x8192x1 ![0, 1] bcast_S32x8192_S32x8192x1_0_1 x (ix3 b m z) = x (ix2 b m) :=
  broadcastInDim_apply ![0, 1] bcast_S32x8192_S32x8192x1_0_1 x (ix3 b m z) (ix2 b m) (fun a => by
    match a with
    | ⟨0, _⟩ => rfl
    | ⟨1, _⟩ => rfl)

/-- A number per token spread along 64 coordinates reads the token's number. -/
theorem spread64_apply (x : FVec Ideal S32x8192x1 .f32) (b : Fin 32) (m : Fin 8192) (d : Fin 64) :
    broadcastInDim S32x8192x64 ![0, 1, 2] bcast_S32x8192x1_S32x8192x64_0_1_2 x (ix3 b m d) = x (ix3 b m (0 : Fin 1)) :=
  broadcastInDim_apply ![0, 1, 2] bcast_S32x8192x1_S32x8192x64_0_1_2 x (ix3 b m d) (ix3 b m (0 : Fin 1)) (fun a => by
    match a with
    | ⟨0, _⟩ => rfl
    | ⟨1, _⟩ => rfl
    | ⟨2, _⟩ => rfl)

/-- A number per token spread along 8 clusters reads the token's number. -/
theorem spread8_apply (x : FVec Ideal S32x8192x1 .f32) (b : Fin 32) (m : Fin 8192) (k : Fin 8) :
    broadcastInDim S32x8192x8 ![0, 1, 2] bcast_S32x8192x1_S32x8192x8_0_1_2 x (ix3 b m k) = x (ix3 b m (0 : Fin 1)) :=
  broadcastInDim_apply ![0, 1, 2] bcast_S32x8192x1_S32x8192x8_0_1_2 x (ix3 b m k) (ix3 b m (0 : Fin 1)) (fun a => by
    match a with
    | ⟨0, _⟩ => rfl
    | ⟨1, _⟩ => rfl
    | ⟨2, _⟩ => rfl)

/-- Dropping the last axis of the 32 x 8192 x 64 array leaves one entry per token. -/
theorem red64 : S32x8192x64.Reduces [2] S32x8192 := by decide
/-- Dropping the last axis of the 32 x 8192 x 8 array leaves one entry per token. -/
theorem red8 : S32x8192x8.Reduces [2] S32x8192 := by decide

/-- The sum along the 64 coordinates, started from the pattern of zero, at a token: the sum over the coordinates. -/
theorem sum64_apply (x : FVec Ideal S32x8192x64 .f32) (b : Fin 32) (m : Fin 8192) :
    Host.reduceAdd (F := Ideal) x (constant (F := Ideal) S_ .f32 0x00000000#32) reducesTo_S32x8192x64_S32x8192_d2 h_S_ (ix2 b m)
      = ∑ d : Fin 64, x (ix3 b m d) := by
  refine (hostReduceAdd_apply x _ reducesTo_S32x8192x64_S32x8192_d2 h_S_ (ix2 b m)).trans ?_
  refine (Ideal.hostReduceAdd_single reducesTo_S32x8192x64_S32x8192_d2 red64 x _ (ix2 b m)).trans ?_
  show Ideal.ofBits .f32 0x00000000#32 + ∑ d : Fin 64, x (red64.lift (ix2 b m) d) = _
  rw [Ideal.ofBits_zero_f32, zero_add]
  refine Finset.sum_congr rfl fun d _ => congrArg x (funext fun a => Fin.ext ?_)
  match a with
  | ⟨0, _⟩ => rfl
  | ⟨1, _⟩ => rfl
  | ⟨2, _⟩ => rfl

/-- The sum along the 8 clusters, started from the pattern of zero, at a token: the sum over the clusters. -/
theorem sum8_apply (x : FVec Ideal S32x8192x8 .f32) (b : Fin 32) (m : Fin 8192) :
    Host.reduceAdd (F := Ideal) x (constant (F := Ideal) S_ .f32 0x00000000#32) reducesTo_S32x8192x8_S32x8192_d2 h_S_ (ix2 b m)
      = ∑ k : Fin 8, x (ix3 b m k) := by
  refine (hostReduceAdd_apply x _ reducesTo_S32x8192x8_S32x8192_d2 h_S_ (ix2 b m)).trans ?_
  refine (Ideal.hostReduceAdd_single reducesTo_S32x8192x8_S32x8192_d2 red8 x _ (ix2 b m)).trans ?_
  show Ideal.ofBits .f32 0x00000000#32 + ∑ k : Fin 8, x (red8.lift (ix2 b m) k) = _
  rw [Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The maximum along the 8 clusters, started from the lowest value, at a token: the fold of max over the clusters. -/
theorem max8_apply (x : FVec Ideal S32x8192x8 .f32) (b : Fin 32) (m : Fin 8192) :
    Host.reduce (FloatOps.maximumf (F := Ideal) (φ := .f32)) x (constant (F := Ideal) S_ .f32 0xFF800000#32) reducesTo_S32x8192x8_S32x8192_d2 h_S_ (ix2 b m)
      = Finset.univ.fold max Cert.Vlad.lowest (fun k : Fin 8 => x (ix3 b m k)) := by
  refine (Host.reduce_eq_fold_single (FloatOps.maximumf (F := Ideal) (φ := .f32)) x _ reducesTo_S32x8192x8_S32x8192_d2 red8 h_S_ (ix2 b m)).trans ?_
  show Finset.univ.fold max (Ideal.ofBits .f32 0xFF800000#32) (fun k : Fin 8 => x (red8.lift (ix2 b m) k)) = _
  refine congrArg (Finset.univ.fold max _) (funext fun k => congrArg x (funext fun a => Fin.ext ?_))
  match a with
  | ⟨0, _⟩ => rfl
  | ⟨1, _⟩ => rfl
  | ⟨2, _⟩ => rfl

/-- The projection stage at a token and coordinate. -/
theorem v3_apply (b : Fin 32) (m : Fin 8192) (d : Fin 64) :
    (res_main_v3 V0 : S32x8192x64.Idx → EReal) (ix3 b m d) = Cert.Vlad.proj (Wr V0) (br V0) (X V0 b m) d := by
  unfold res_main_v3 Cert.Vlad.proj
  refine (addf_apply _ _ _).trans ?_
  exact congrArg₂ (· + ·) (dot1_apply _ _ b m d) (bias64_apply _ b m d)

/-- The unit-vector stage at a token and coordinate. -/
theorem v11_apply (b : Fin 32) (m : Fin 8192) (d : Fin 64) :
    (res_main_v11 V0 : S32x8192x64.Idx → EReal) (ix3 b m d) = Cert.Vlad.dir (Wr V0) (br V0) (X V0 b m) d := by
  unfold res_main_v11 Cert.Vlad.dir Cert.Vlad.scaled
  refine (hostDivf_apply _ _ _).trans ?_
  refine congrArg₂ Ideal.div (v3_apply V0 b m d) ?_
  refine (spread64_apply _ b m d).trans ?_
  refine (maximumf_apply _ _ _).trans ?_
  refine congrArg₂ max ?_ ?_
  · refine congrArg Ideal.sqrt ?_
    refine (keep_apply _ b m 0).trans ?_
    refine (sum64_apply _ b m).trans ?_
    refine Finset.sum_congr rfl fun d' _ => ?_
    refine (mulf_apply _ _ _).trans ?_
    exact congrArg₂ (· * ·) (v3_apply V0 b m d') (v3_apply V0 b m d')
  · exact broadcastInDim_scalar_apply _ _ _

/-- The score stage at a token and cluster. -/
theorem v15_apply (b : Fin 32) (m : Fin 8192) (k : Fin 8) :
    (res_main_v15 V0 : S32x8192x8.Idx → EReal) (ix3 b m k) = Cert.Vlad.score (Wr V0) (br V0) (Wl V0) (bl V0) (X V0 b m) k := by
  unfold res_main_v15 Cert.Vlad.score
  refine (addf_apply _ _ _).trans ?_
  refine congrArg₂ (· + ·) ((dot2_apply _ _ b m k).trans ?_) (bias8_apply _ b m k)
  exact Finset.sum_congr rfl fun d _ => congrArg (· * Wl V0 k d) (v11_apply V0 b m d)

/-- The shifted-exponential stage at a token and cluster. -/
theorem v22_apply (b : Fin 32) (m : Fin 8192) (k : Fin 8) :
    (res_main_v22 V0 : S32x8192x8.Idx → EReal) (ix3 b m k) = Cert.Vlad.lifted (Wr V0) (br V0) (Wl V0) (bl V0) (X V0 b m) k := by
  unfold res_main_v22 Cert.Vlad.lifted Cert.Vlad.peak
  refine congrArg Ideal.exp ?_
  refine (subf_apply _ _ _).trans ?_
  refine congrArg₂ (· - ·) (v15_apply V0 b m k) ?_
  refine (spread8_apply _ b m k).trans ?_
  refine (keep_apply _ b m 0).trans ?_
  refine (maximumf_apply _ _ _).trans ?_
  refine congrArg₂ max (broadcastInDim_scalar_apply _ _ _) ?_
  refine (max8_apply _ b m).trans ?_
  exact congrArg (Finset.univ.fold max _) (funext fun k' => v15_apply V0 b m k')

/-- The weight stage at a token and cluster. -/
theorem v26_apply (b : Fin 32) (m : Fin 8192) (k : Fin 8) :
    (res_main_v26 V0 : S32x8192x8.Idx → EReal) (ix3 b m k) = Cert.Vlad.weight (Wr V0) (br V0) (Wl V0) (bl V0) (X V0 b m) k := by
  unfold res_main_v26 Cert.Vlad.weight Cert.Vlad.mass
  refine (hostDivf_apply _ _ _).trans ?_
  refine congrArg₂ Ideal.div (v22_apply V0 b m k) ?_
  refine (spread8_apply _ b m k).trans ?_
  refine (keep_apply _ b m 0).trans ?_
  refine (sum8_apply _ b m).trans ?_
  exact Finset.sum_congr rfl fun k' _ => v22_apply V0 b m k'

/-- The unit vector of token `m` of sequence `b`. -/
theorem dirAt_eq (b : Fin 32) (m : Fin 8192) (d : Fin 64) :
    dirAt V0 b m d = Cert.Vlad.dir (Wr V0) (br V0) (X V0 b m) d :=
  v11_apply V0 b m d

/-- The weight of token `m` of sequence `b` on cluster `k`. -/
theorem weightAt_eq (b : Fin 32) (m : Fin 8192) (k : Fin 8) :
    weightAt V0 b m k = Cert.Vlad.weight (Wr V0) (br V0) (Wl V0) (bl V0) (X V0 b m) k :=
  v26_apply V0 b m k

end Cert.ReferenceIdeal.Token

end
-- ==== Proof.RPool.lean ====
/-
  The reference's pooling and its two scalings, read one entry at a time: the residual is the pooled sums less centre
  times total weight, the sums taken over all 8192 tokens at once; the reshaped array is the residual scaled row by row;
  and the result is the specification's descriptor, the sum of 512 squares being the sum over 8 rows of 64 squares.
-/
import proofs.«129890_j20444044329188_1_alg».proof.Proof.Spec
import proofs.«129890_j20444044329188_1_alg».proof.Proof.RefStages
import Idealize.ShloMosaic.Lib.ValueIdx
import Idealize.ShloMosaic.Lib.IdealHost
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.Pool

open Cert.ReferenceIdeal Cert.ReferenceIdeal.Gen Cert.ReferenceIdeal.Value Cert.ReferenceIdeal.Args Cert.ReferenceIdeal.Stages

variable (V0 : Valuation τ sig (Elt Ideal))

/-- The batch product of the weights with the unit vectors, read at (b, k, d): the sum over the tokens. -/
theorem poolDot_apply (A : FVec Ideal S32x8192x8 .f32) (B : FVec Ideal S32x8192x64 .f32)
    (b : Fin 32) (k : Fin 8) (d : Fin 64) :
    Host.dotGeneral (F := Ideal) dot_S32x8192x8_S32x8192x64_S32x8x64_1_1_2_2_0_0 none A B (ix3 b k d)
      = ∑ m : Fin 8192, A (ix3 b m k) * B (ix3 b m d) := by
  show FloatOps.dotGeneral _ none _ A B (ix3 b k d) = _
  rw [Ideal.dotGeneral_apply,
    ← Equiv.sum_comp (contrEquiv1 dot_S32x8192x8_S32x8192x64_S32x8x64_1_1_2_2_0_0 8192 rfl rfl).symm]
  refine Finset.sum_congr rfl fun m _ => ?_
  have c3 := contrEquiv1_symm_val dot_S32x8192x8_S32x8192x64_S32x8x64_1_1_2_2_0_0 8192 rfl rfl m
  have l3 : dot_S32x8192x8_S32x8192x64_S32x8x64_1_1_2_2_0_0.lhsIdx (ix3 b k d)
      ((contrEquiv1 dot_S32x8192x8_S32x8192x64_S32x8x64_1_1_2_2_0_0 8192 rfl rfl).symm m) = ix3 b m k := by
    funext ax; apply Fin.ext
    match ax with
    | ⟨0, _⟩ => simp [DotDims.lhsIdx, dot_S32x8192x8_S32x8192x64_S32x8x64_1_1_2_2_0_0]; rfl
    | ⟨1, _⟩ => simp [DotDims.lhsIdx, dot_S32x8192x8_S32x8192x64_S32x8x64_1_1_2_2_0_0]; exact c3
    | ⟨2, _⟩ => simp [DotDims.lhsIdx, dot_S32x8192x8_S32x8192x64_S32x8x64_1_1_2_2_0_0]; rfl
  have r3 : dot_S32x8192x8_S32x8192x64_S32x8x64_1_1_2_2_0_0.rhsIdx (ix3 b k d)
      ((contrEquiv1 dot_S32x8192x8_S32x8192x64_S32x8x64_1_1_2_2_0_0 8192 rfl rfl).symm m) = ix3 b m d := by
    funext ax; apply Fin.ext
    match ax with
    | ⟨0, _⟩ => simp [DotDims.rhsIdx, dot_S32x8192x8_S32x8192x64_S32x8x64_1_1_2_2_0_0]; rfl
    | ⟨1, _⟩ => simp [DotDims.rhsIdx, dot_S32x8192x8_S32x8192x64_S32x8x64_1_1_2_2_0_0]; exact c3
    | ⟨2, _⟩ => simp [DotDims.rhsIdx, dot_S32x8192x8_S32x8192x64_S32x8x64_1_1_2_2_0_0]; rfl
  rw [l3, r3]

/-! The sums over one axis, the initial value zero removed. -/

/-- The sum of a [32, 8192, 8] array over its token axis, read at (b, k). -/
theorem tokSum_apply (x : FVec Ideal S32x8192x8 .f32) (b : Fin 32) (k : Fin 8) :
    Host.reduceAdd (F := Ideal) x (constant (F := Ideal) S_ .f32 0x00000000#32) reducesTo_S32x8192x8_S32x8_d1 h_S_ (ix2 b k)
      = ∑ m : Fin 8192, x (ix3 b m k) := by
  have h : S32x8192x8.Reduces [1] S32x8 := by decide
  refine (Ideal.hostReduceAdd_single reducesTo_S32x8192x8_S32x8_d1 h x _ (ix2 b k)).trans ?_
  show Ideal.ofBits .f32 0x00000000#32 + ∑ m : Fin 8192, x (h.lift (ix2 b k) m) = _
  rw [Ideal.ofBits_zero_f32, zero_add]
  refine Finset.sum_congr rfl fun m _ => congrArg x ?_
  funext c; apply Fin.ext
  match c with
  | ⟨0, _⟩ => rfl
  | ⟨1, _⟩ => rfl
  | ⟨2, _⟩ => rfl

/-- The sum of a [32, 8, 64] array over its last axis, read at (b, k). -/
theorem rowSum_apply (x : FVec Ideal S32x8x64 .f32) (b : Fin 32) (k : Fin 8) :
    Host.reduceAdd (F := Ideal) x (constant (F := Ideal) S_ .f32 0x00000000#32) reducesTo_S32x8x64_S32x8_d2 h_S_ (ix2 b k)
      = ∑ d : Fin 64, x (ix3 b k d) := by
  have h : S32x8x64.Reduces [2] S32x8 := by decide
  refine (Ideal.hostReduceAdd_single reducesTo_S32x8x64_S32x8_d2 h x _ (ix2 b k)).trans ?_
  show Ideal.ofBits .f32 0x00000000#32 + ∑ d : Fin 64, x (h.lift (ix2 b k) d) = _
  rw [Ideal.ofBits_zero_f32, zero_add]
  refine Finset.sum_congr rfl fun d _ => congrArg x ?_
  funext c; apply Fin.ext
  match c with
  | ⟨0, _⟩ => rfl
  | ⟨1, _⟩ => rfl
  | ⟨2, _⟩ => rfl

/-- The sum of a [32, 512] array over its last axis, read at b. -/
theorem flatSum_apply (x : FVec Ideal S32x512 .f32) (b : Fin 32) :
    Host.reduceAdd (F := Ideal) x (constant (F := Ideal) S_ .f32 0x00000000#32) reducesTo_S32x512_S32_d1 h_S_ (ix1 b)
      = ∑ j : Fin 512, x (ix2 b j) := by
  have h : S32x512.Reduces [1] S32 := by decide
  refine (Ideal.hostReduceAdd_single reducesTo_S32x512_S32_d1 h x _ (ix1 b)).trans ?_
  show Ideal.ofBits .f32 0x00000000#32 + ∑ j : Fin 512, x (h.lift (ix1 b) j) = _
  rw [Ideal.ofBits_zero_f32, zero_add]
  refine Finset.sum_congr rfl fun j _ => congrArg x ?_
  funext c; apply Fin.ext
  match c with
  | ⟨0, _⟩ => rfl
  | ⟨1, _⟩ => rfl

/-! The broadcasts: each reads its operand at the coordinates kept, zero on a unit axis. -/

/-- [32, 8] to [32, 8, 1]: a unit axis added at the end. -/
theorem col_S32x8_apply {α : Type} (y : S32x8.Idx → α) (b : Fin 32) (k : Fin 8) (z : Fin 1) :
    broadcastInDim S32x8x1 ![0, 1] bcast_S32x8_S32x8x1_0_1 y (ix3 b k z) = y (ix2 b k) :=
  broadcastInDim_apply _ _ y (ix3 b k z) (ix2 b k) (fun a => match a with
    | ⟨0, _⟩ => rfl
    | ⟨1, _⟩ => rfl)

/-- [32, 8, 1] to [32, 8, 64]: the unit axis expanded. -/
theorem wide_S32x8x1_apply {α : Type} (y : S32x8x1.Idx → α) (b : Fin 32) (k : Fin 8) (d : Fin 64) :
    broadcastInDim S32x8x64 ![0, 1, 2] bcast_S32x8x1_S32x8x64_0_1_2 y (ix3 b k d) = y (ix3 b k (0 : Fin 1)) :=
  broadcastInDim_apply _ _ y (ix3 b k d) (ix3 b k (0 : Fin 1)) (fun a => match a with
    | ⟨0, _⟩ => rfl
    | ⟨1, _⟩ => rfl
    | ⟨2, _⟩ => rfl)

/-- [8, 64] to [1, 8, 64]: a unit axis added in front. -/
theorem lead_S8x64_apply {α : Type} (y : S8x64.Idx → α) (z : Fin 1) (k : Fin 8) (d : Fin 64) :
    broadcastInDim S1x8x64 ![1, 2] bcast_S8x64_S1x8x64_1_2 y (ix3 z k d) = y (ix2 k d) :=
  broadcastInDim_apply _ _ y (ix3 z k d) (ix2 k d) (fun a => match a with
    | ⟨0, _⟩ => rfl
    | ⟨1, _⟩ => rfl)

/-- [1, 8, 64] to [32, 8, 64]: the leading unit axis expanded. -/
theorem wide_S1x8x64_apply {α : Type} (y : S1x8x64.Idx → α) (b : Fin 32) (k : Fin 8) (d : Fin 64) :
    broadcastInDim S32x8x64 ![0, 1, 2] bcast_S1x8x64_S32x8x64_0_1_2 y (ix3 b k d) = y (ix3 (0 : Fin 1) k d) :=
  broadcastInDim_apply _ _ y (ix3 b k d) (ix3 (0 : Fin 1) k d) (fun a => match a with
    | ⟨0, _⟩ => rfl
    | ⟨1, _⟩ => rfl
    | ⟨2, _⟩ => rfl)

/-- [32] to [32, 1]: a unit axis added at the end. -/
theorem col_S32_apply {α : Type} (y : S32.Idx → α) (b : Fin 32) (z : Fin 1) :
    broadcastInDim S32x1 ![0] bcast_S32_S32x1_0 y (ix2 b z) = y (ix1 b) :=
  broadcastInDim_apply _ _ y (ix2 b z) (ix1 b) (fun a => match a with
    | ⟨0, _⟩ => rfl)

/-- [32, 1] to [32, 512]: the unit axis expanded. -/
theorem wide_S32x1_apply {α : Type} (y : S32x1.Idx → α) (b : Fin 32) (j : Fin 512) :
    broadcastInDim S32x512 ![0, 1] bcast_S32x1_S32x512_0_1 y (ix2 b j) = y (ix2 b (0 : Fin 1)) :=
  broadcastInDim_apply _ _ y (ix2 b j) (ix2 b (0 : Fin 1)) (fun a => match a with
    | ⟨0, _⟩ => rfl
    | ⟨1, _⟩ => rfl)

/-- The reshape [32, 8, 64] to [32, 512]: position 64 k + d of row b is entry (b, k, d). -/
theorem flat_apply {α : Type} (v : S32x8x64.Idx → α) (b : Fin 32) (k : Fin 8) (d : Fin 64) :
    shapeCast S32x512 v shapeCasts_S32x8x64_S32x512 (ix2 b (flat k d)) = v (ix3 b k d) :=
  shapeCast_apply v _ (ix2 b (flat k d)) (ix3 b k d) (by
    rw [Shape.rowMajor_val_three, Shape.rowMajor_val_two]
    show (b.val * 8 + k.val) * 64 + d.val = b.val * 512 + (64 * k.val + d.val)
    omega)

/-- The floor broadcast to [32, 8, 1] reads the floor everywhere. -/
theorem tiny_S32x8x1_apply (j : S32x8x1.Idx) :
    broadcastInDim S32x8x1 ![] bcast_S_S32x8x1 (constant (F := Ideal) S_ .f32 0x2B8CBCCC#32) j = Cert.Vlad.tiny :=
  broadcastInDim_scalar_apply _ _ j

/-- The floor broadcast to [32, 1] reads the floor everywhere. -/
theorem tiny_S32x1_apply (j : S32x1.Idx) :
    broadcastInDim S32x1 ![] bcast_S_S32x1 (constant (F := Ideal) S_ .f32 0x2B8CBCCC#32) j = Cert.Vlad.tiny :=
  broadcastInDim_scalar_apply _ _ j

/-- A sum over the 512 flat positions is the sum over the 8 rows of the sums over their 64 entries. -/
theorem sum_flat (f : Fin 512 → EReal) : ∑ j : Fin 512, f j = ∑ k : Fin 8, ∑ d : Fin 64, f (flat k d) := by
  refine ((Equiv.sum_comp (finProdFinEquiv : Fin 8 × Fin 64 ≃ Fin (8 * 64)) f).symm).trans ?_
  rw [Fintype.sum_prod_type]
  refine Finset.sum_congr rfl fun k _ => Finset.sum_congr rfl fun d _ => congrArg f (Fin.ext ?_)
  show d.val + 64 * k.val = 64 * k.val + d.val
  omega

/-- The larger of a row's length and the floor, read at (b, k): the root of the sum of the row's 64 squares. -/
theorem rowLen_apply (x : FVec Ideal S32x8x64 .f32) (b : Fin 32) (k : Fin 8) (z : Fin 1) :
    maximumf (Host.sqrt (F := Ideal) (broadcastInDim S32x8x1 ![0, 1] bcast_S32x8_S32x8x1_0_1
        (Host.reduceAdd (F := Ideal) (mulf x x) (constant (F := Ideal) S_ .f32 0x00000000#32) reducesTo_S32x8x64_S32x8_d2 h_S_)))
      (broadcastInDim S32x8x1 ![] bcast_S_S32x8x1 (constant (F := Ideal) S_ .f32 0x2B8CBCCC#32)) (ix3 b k z)
      = max (Ideal.sqrt (∑ d : Fin 64, x (ix3 b k d) * x (ix3 b k d))) Cert.Vlad.tiny := by
  rw [maximumf_apply, tiny_S32x8x1_apply]
  show max (Ideal.sqrt (broadcastInDim S32x8x1 ![0, 1] bcast_S32x8_S32x8x1_0_1
        (Host.reduceAdd (F := Ideal) (mulf x x) (constant (F := Ideal) S_ .f32 0x00000000#32) reducesTo_S32x8x64_S32x8_d2 h_S_)
        (ix3 b k z))) Cert.Vlad.tiny = _
  rw [col_S32x8_apply, rowSum_apply]
  rfl

/-- The larger of the whole length and the floor, read at b: the root of the sum of the 512 squares. -/
theorem allLen_apply (x : FVec Ideal S32x512 .f32) (b : Fin 32) (z : Fin 1) :
    maximumf (Host.sqrt (F := Ideal) (broadcastInDim S32x1 ![0] bcast_S32_S32x1_0
        (Host.reduceAdd (F := Ideal) (mulf x x) (constant (F := Ideal) S_ .f32 0x00000000#32) reducesTo_S32x512_S32_d1 h_S_)))
      (broadcastInDim S32x1 ![] bcast_S_S32x1 (constant (F := Ideal) S_ .f32 0x2B8CBCCC#32)) (ix2 b z)
      = max (Ideal.sqrt (∑ j : Fin 512, x (ix2 b j) * x (ix2 b j))) Cert.Vlad.tiny := by
  rw [maximumf_apply, tiny_S32x1_apply]
  show max (Ideal.sqrt (broadcastInDim S32x1 ![0] bcast_S32_S32x1_0
        (Host.reduceAdd (F := Ideal) (mulf x x) (constant (F := Ideal) S_ .f32 0x00000000#32) reducesTo_S32x512_S32_d1 h_S_)
        (ix2 b z))) Cert.Vlad.tiny = _
  rw [col_S32_apply, flatSum_apply]
  rfl

/-! The three readings. -/

/-- The residual of sequence `b`. -/
theorem residAt_eq (b : Fin 32) (k : Fin 8) (d : Fin 64) :
    residAt V0 b k d = Cert.Vlad.resid (Ce V0) (pooledAt V0 b) (totalAt V0 b) k d := by
  show (res_main_v34 V0 : S32x8x64.Idx → EReal) (ix3 b k d)
    = (∑ m : Fin 8192, weightAt V0 b m k * dirAt V0 b m d) - Ce V0 k d * ∑ m : Fin 8192, weightAt V0 b m k
  unfold res_main_v34
  rw [subf_apply, mulf_apply, poolDot_apply, wide_S1x8x64_apply, lead_S8x64_apply, wide_S32x8x1_apply,
    col_S32x8_apply, tokSum_apply]

/-- The reshaped array at the flat position of (k, d): the residual scaled row by row. -/
theorem rowAt_eq (b : Fin 32) (k : Fin 8) (d : Fin 64) :
    rowAt V0 b (flat k d) = Cert.Vlad.rowScaled (Cert.Vlad.resid (Ce V0) (pooledAt V0 b) (totalAt V0 b)) k d := by
  show (res_main_v43 V0 : S32x512.Idx → EReal) (ix2 b (flat k d)) = _
  unfold res_main_v43
  refine (flat_apply _ b k d).trans ?_
  rw [hostDivf_apply, wide_S32x8x1_apply, rowLen_apply]
  unfold Cert.Vlad.rowScaled Cert.Vlad.scaled
  refine congrArg₂ Ideal.div (residAt_eq V0 b k d) ?_
  refine congrArg (fun s => max (Ideal.sqrt s) Cert.Vlad.tiny) ?_
  refine Finset.sum_congr rfl fun d' _ => ?_
  rw [show (res_main_v34 V0 : S32x8x64.Idx → EReal) (ix3 b k d') = residAt V0 b k d' from rfl, residAt_eq]

/-- The run's result at the flat position of (k, d): the descriptor of sequence `b`. -/
theorem result_eq (b : Fin 32) (k : Fin 8) (d : Fin 64) :
    result V0 (ix2 b (flat k d)) = Cert.Vlad.descriptor (Ce V0) (pooledAt V0 b) (totalAt V0 b) k d := by
  unfold Cert.ReferenceIdeal.Stages.result
  rw [hostDivf_apply, wide_S32x1_apply, allLen_apply]
  unfold Cert.Vlad.descriptor Cert.Vlad.allScaled
  refine congrArg₂ Ideal.div (rowAt_eq V0 b k d) ?_
  refine congrArg (fun s => max (Ideal.sqrt s) Cert.Vlad.tiny) ?_
  refine (sum_flat _).trans ?_
  refine Finset.sum_congr rfl fun k' _ => Finset.sum_congr rfl fun d' _ => ?_
  rw [show (res_main_v43 V0 : S32x512.Idx → EReal) (ix2 b (flat k' d')) = rowAt V0 b (flat k' d') from rfl, rowAt_eq]

end Cert.ReferenceIdeal.Pool

end
-- ==== Proof.Final.lean ====
/-
  The two programs meet. From memories that agree on the arguments, the reference's result and the kernel's reshaped
  result array are one function: at the flat position of (k, d) in row b both are the descriptor of sequence b, the
  reference's pooled sums and total weights being the specification's sums over the 8192 tokens term by term.
-/
import proofs.«129890_j20444044329188_1_alg».proof.Proof.Spec
import proofs.«129890_j20444044329188_1_alg».proof.Proof.KBridge
import proofs.«129890_j20444044329188_1_alg».proof.Proof.KRun
import proofs.«129890_j20444044329188_1_alg».proof.Proof.RToken
import proofs.«129890_j20444044329188_1_alg».proof.Proof.RPool

noncomputable section

open scoped BigOperators
open Idealize.ShloMosaic Idealize.ShloMosaic.TcCoe Idealize.SL.Sem Idealize.ShloMosaic.ValueIdx

namespace Cert.Proof.Final

open Cert.ReferenceIdeal.Args Cert.ReferenceIdeal.Stages

/-- The reference's pooled sums of sequence `b` are the specification's. -/
theorem pooledAt_eq (V0 : Valuation Cert.ReferenceIdeal.τ Cert.ReferenceIdeal.sig (Elt Ideal)) (b : Fin 32) :
    pooledAt V0 b = Cert.Vlad.pooled (Wr V0) (br V0) (Wl V0) (bl V0) (fun mm => X V0 b mm) := by
  funext k d
  show ∑ mm : Fin 8192, weightAt V0 b mm k * dirAt V0 b mm d = _
  unfold Cert.Vlad.pooled
  exact Finset.sum_congr rfl fun mm _ => by rw [Cert.ReferenceIdeal.Token.weightAt_eq, Cert.ReferenceIdeal.Token.dirAt_eq]

/-- The reference's total weights of sequence `b` are the specification's. -/
theorem totalAt_eq (V0 : Valuation Cert.ReferenceIdeal.τ Cert.ReferenceIdeal.sig (Elt Ideal)) (b : Fin 32) :
    totalAt V0 b = Cert.Vlad.total (Wr V0) (br V0) (Wl V0) (bl V0) (fun mm => X V0 b mm) := by
  funext k
  show ∑ mm : Fin 8192, weightAt V0 b mm k = _
  unfold Cert.Vlad.total
  exact Finset.sum_congr rfl fun mm _ => by rw [Cert.ReferenceIdeal.Token.weightAt_eq]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result is the kernel's reshaped result array, when the two memories agree on the arguments. -/
theorem result_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Stages.result (StableHlo.launchContents m' c)
      = shapeCast Cert.KernelIdeal.S32x512 (Cert.KernelIdeal.Chain.G m c) Cert.KernelIdeal.Gen.shapeCasts_S32x8x64_S32x512 := by
  obtain ⟨a0, -, a2, a3, a4, a5, a6⟩ := hag
  have hX : (fun b mm cc => X (StableHlo.launchContents m' c) b mm cc) = fun b mm cc => Cert.KernelIdeal.Bridge.X m c b mm cc :=
    funext fun b => funext fun mm => funext fun cc => congrFun a0 (ix3 b mm cc)
  have hWr : Wr (StableHlo.launchContents m' c) = Cert.KernelIdeal.Bridge.Wr m c := funext fun d => funext fun cc => congrFun a2 (ix2 d cc)
  have hbr : br (StableHlo.launchContents m' c) = Cert.KernelIdeal.Bridge.br m c := funext fun d => congrFun a3 (ix1 d)
  have hWl : Wl (StableHlo.launchContents m' c) = Cert.KernelIdeal.Bridge.Wl m c := funext fun k => funext fun d => congrFun a4 (ix2 k d)
  have hbl : bl (StableHlo.launchContents m' c) = Cert.KernelIdeal.Bridge.bl m c := funext fun k => congrFun a5 (ix1 k)
  have hCe : Ce (StableHlo.launchContents m' c) = Cert.KernelIdeal.Bridge.Ce m c := funext fun k => funext fun d => congrFun a6 (ix2 k d)
  funext j
  obtain ⟨b, q, rfl⟩ : ∃ (b : Fin 32) (q : Fin 512), j = ix2 b q := ⟨j 0, j 1, eq_ix2 j⟩
  obtain ⟨k, d, rfl⟩ : ∃ (k : Fin 8) (d : Fin 64), q = flat k d :=
    ⟨⟨q.val / 64, by have := q.isLt; omega⟩, ⟨q.val % 64, by omega⟩, Fin.ext (by show q.val = 64 * (q.val / 64) + q.val % 64; omega)⟩
  rw [Cert.ReferenceIdeal.Pool.result_eq, pooledAt_eq, totalAt_eq]
  refine Eq.trans ?_ (Eq.trans (Cert.KernelIdeal.Bridge.G_eq m c b k d).symm ?_)
  · have hseq : (fun mm => X (StableHlo.launchContents m' c) b mm) = Cert.KernelIdeal.Bridge.seq m c b := congrFun hX b
    rw [hWr, hbr, hWl, hbl, hCe, hseq]
  · exact (shapeCast_apply (Cert.KernelIdeal.Chain.G m c) Cert.KernelIdeal.Gen.shapeCasts_S32x8x64_S32x512 (ix2 b (flat k d)) (ix3 b k d) (by
      rw [Shape.rowMajor_val_three, Shape.rowMajor_val_two]
      show (b.val * 8 + k.val) * 64 + d.val = b.val * 512 + (64 * k.val + d.val)
      omega)).symm

end Cert.Proof.Final

end
-- ==== Proof.lean ====
/-
  The certificate of the soft-assignment pooling kernel against its reference over the extended reals.

  Both programs project each 512-number token to 64 numbers, scale it to unit length, score it against 8 clusters and
  turn the scores into weights by a shifted exponential over its sum; pool, per sequence and cluster, the weighted unit
  vectors and the weights over the 8192 tokens; subtract each centre times its cluster's total weight; and scale the
  8 x 64 result to unit length row by row and then as a whole (Proof/Spec.lean states this once). The reference does it
  on whole arrays. The kernel visits each sequence in two blocks of 4096 tokens, keeping the two sums in buffers it
  resets at the first block and finishes at the second, and a host reshape lays each sequence's result out as 512 numbers.

  The two agree at every input, the infinities included, because nothing but the grouping of finite sums differs: the
  sum over 8192 tokens is the sum over the first 4096, started from zero, plus the sum over the last 4096; and the sum of
  512 squares is the sum over 8 rows of 64 squares. Sums of extended reals commute and associate, so no finiteness is
  used and the precondition is never opened. The changes of number format in the kernel are the identity on extended
  reals, a product into a zero accumulator is the plain sum of products, and the two literals (the floor under each
  length and minus infinity) are the same bit patterns on both sides.

  The three frames are the generated ones (the reference's is its generated run with the result dropped); the ideal
  pass rewrote nothing, so the idealization conjunct is trivial.
-/
import proofs.«129890_j20444044329188_1_alg».proof.Defs
import proofs.«129890_j20444044329188_1_alg».proof.Proof.Gen.Kernel
import proofs.«129890_j20444044329188_1_alg».proof.Proof.Gen.Kernel.Skeleton
import proofs.«129890_j20444044329188_1_alg».proof.Proof.Gen.Kernel.Launch
import proofs.«129890_j20444044329188_1_alg».proof.Proof.Gen.Kernel.Points
import proofs.«129890_j20444044329188_1_alg».proof.Proof.Gen.Kernel.Frame
import proofs.«129890_j20444044329188_1_alg».proof.Proof.Gen.KernelIdeal
import proofs.«129890_j20444044329188_1_alg».proof.Proof.Gen.KernelIdeal.Skeleton
import proofs.«129890_j20444044329188_1_alg».proof.Proof.Gen.KernelIdeal.Launch
import proofs.«129890_j20444044329188_1_alg».proof.Proof.Gen.KernelIdeal.Points
import proofs.«129890_j20444044329188_1_alg».proof.Proof.Gen.KernelIdeal.Frame
import proofs.«129890_j20444044329188_1_alg».proof.Proof.Gen.ReferenceIdeal
import proofs.«129890_j20444044329188_1_alg».proof.Proof.Gen.ReferenceIdeal.Run
import proofs.«129890_j20444044329188_1_alg».proof.Proof.Gen.Pre_finite_inputs
import proofs.«129890_j20444044329188_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: nothing was rewritten. -/
theorem preserves : Cert.preserves_Kernel_KernelIdeal := trivial

/-- Over the extended reals, from memories that agree on the arguments, the kernel's reshaped result array and the
    reference's result are one function (Proof/Final.lean). -/
theorem algebraic : Cert.algebraic_KernelIdeal_ReferenceIdeal := by
  intro m ρ m' ρ' _ hagree
  refine ⟨fun c => shapeCast Cert.KernelIdeal.S32x512 (Cert.KernelIdeal.Chain.G m c) Cert.KernelIdeal.Gen.shapeCasts_S32x8x64_S32x512,
    Cert.KernelIdeal.Chain.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Final.result_eq m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
